-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S1x1 : Shape := ⟨2, ![1, 1]⟩
abbrev S_ : Shape := ⟨0, ![]⟩
abbrev S1x1024x3 : Shape := ⟨3, ![1, 1024, 3]⟩
abbrev S1024x1 : Shape := ⟨2, ![1024, 1]⟩
abbrev S1024x3 : Shape := ⟨2, ![1024, 3]⟩
abbrev S3x1024 : Shape := ⟨2, ![3, 1024]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S1x1, .f32⟩
  | .hbm, ⟨3, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1, .f32⟩
  | .local _ .vmem, ⟨5, _⟩ => ⟨S1024x1, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_cond3 (i : grid0.Coords) : BitVec 1 :=
  let arg2 : BitVec 32 := BitVec.ofNat 32 (i 2).val
  let c7_i32 : BitVec 32 := 7#32
  let v58 : BitVec 1 := Scalar.cmpi .eq arg2 c7_i32
  let v59 : BitVec 32 := Scalar.extui v58
  let c0_i32_16 : BitVec 32 := 0#32
  let v60 : BitVec 1 := Scalar.cmpi .ne v59 c0_i32_16
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  transposes_S1024x3_p1_0_S3x1024 : S1024x3.Transposes [1, 0] S3x1024
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S2x8192x3.size a
  hwx0_0 : ∀ i : grid0.Coords, EltTy.bits .f32 = 32 ∨ (Rect.block (s := S2x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S2x8192x3.size a
  hwx0_1 : ∀ i : grid0.Coords, EltTy.bits .f32 = 32 ∨ (Rect.block (s := S2x8192x3) S1x1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond3 i == 1#1) | ⟨_ + 3, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192_S_d0_1 : S2x8192.ReducesTo [0, 1] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.K.Conds.lean ====
/-
  The kernel body's three branches and where they are taken on the 2 × 8 × 8 grid, read at the linear position
  t = 64·b + 8·i + j of the point (b, i, j): the output cell is cleared at t = 0 only; the column of running minima is
  reset where j = 0 (t ≡ 0 mod 8); the column is summed into the output cell where j = 7 (t ≡ 7 mod 8). The output's
  staging cell is left untouched (idle) exactly where neither the first nor the third branch is taken. Also the names
  of each window's current staging buffer and of the column of minima the body keeps between points.
-/
import proofs.«143847_j31044023616212_1_alg».proof.Proof.Gen.Kernel.Frame
import proofs.«143847_j31044023616212_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The first branch (clear the output cell): taken at the grid's first point only. -/
abbrev cond0_0 (i : grid0.Coords) : Prop := k0_cond1 i = 1#1
theorem hcond0_0 : ∀ t : Fin cfg0.N, cond0_0 (grid0.coords t) ↔ t.val % 128 = 0 :=
  (by decide +kernel : ∀ t : Fin grid0.N, cond0_0 (grid0.coords t) ↔ t.val % 128 = 0)

/-- The second branch (reset the column of minima to +∞): taken where the last coordinate is 0. -/
abbrev cond0_1 (i : grid0.Coords) : Prop := (Scalar.cmpi .ne (Scalar.extui (Scalar.cmpi .eq (BitVec.ofNat 32 (i 2).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

/-- The third branch (add the column's sum to the output cell): taken where the last coordinate is 7. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- The output's staging cell is untouched exactly where the body neither clears it nor adds to it. -/
theorem idleAt0_2 : ∀ t : Fin cfg0.N, cfg0.idle 2 (grid0.coords t) = true ↔ (¬ t.val % 128 = 0 ∧ ¬ t.val % 8 = 7) :=
  (by decide +kernel : ∀ t : Fin grid0.N, cfg0.idle 2 (grid0.coords t) = true ↔ (¬ t.val % 128 = 0 ∧ ¬ t.val % 8 = 7))

/-! ## The buffers the body is called on -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The column of 1024 running minima, a buffer of the kernel's own kept between points. -/
abbrev scM0_0 : Memref sig .tc .vmem S1024x1 .f32 := Memref.whole cc0_scratch0
abbrev VS0_0 : View sig .tc .vmem S1024x1 .f32 := scM0_0.view
/-- The output cell's shape as a view, through which what the body leaves in it is stated. -/
abbrev VO0_2 : View sig .tc .vmem S1x1 .f32 := (Memref.whole cc0_stg2_0 : Memref sig .tc .vmem S1x1 .f32).view

/-- What the launch hands the body besides the windows: the column of minima at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body at the grid's first point: the output cell is cleared, the column of minima is reset to +∞ and then lowered by the tile's row minima; nothing is added to the output.
-/
import proofs.«143847_j31044023616212_1_alg».proof.Proof.K.Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) :
    { L : List (View.Piece (Elt F) S1x1 .f32) × List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?L2, ?LS), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.Kernel.Hand

end
-- ==== Proof.K.RunB.lean ====
/-
  The kernel body at a point in the middle of a row of tiles: the column of minima, as the point before left it, is lowered by the tile's row minima; the output cell is not touched.
-/
import proofs.«143847_j31044023616212_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) :
    { L : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs0
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f L)) -∗ K ⟨⟩))
          ⊢ wp frame (wpE (defs₀ (F := F)) Variants.none c none) E (cc0__chamfer_kernel i arg3 harg3 arg4 harg4 arg5 harg5 arg6 harg6) K } := by
  refine ⟨?LS, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.RunC.lean ====
/-
  The kernel body at the last tile of a row of tiles: the column of minima, as the point before left it, is lowered by the tile's row minima, and the sum of the lowered column is added to the output cell as the point before left it.
-/
import proofs.«143847_j31044023616212_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) :
    { L : List (View.Piece (Elt F) S1x1 .f32) × List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?L2, ?LS), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.Kernel.Hand

end
-- ==== Proof.K.RunD.lean ====
/-
  The kernel body at the first tile of a later row of tiles: the column of minima is reset to +∞ and then lowered by the tile's row minima; the output cell is not touched.
-/
import proofs.«143847_j31044023616212_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) :
    { L : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f L)) -∗ K ⟨⟩))
          ⊢ wp frame (wpE (defs₀ (F := F)) Variants.none c none) E (cc0__chamfer_kernel i arg3 harg3 arg4 harg4 arg5 harg5 arg6 harg6) K } := by
  refine ⟨?LS, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.Frame.lean ====
/-
  The kernel's run over the whole grid, with what it leaves named.

  After the body at the point of linear position t the output's staging cell holds `(outsAt0 t).1` and the column of
  running minima `(outsAt0 t).2`, by recursion on t through the four cases: the first point clears the cell and starts the
  column from +∞; the first tile of a later row of tiles restarts the column and leaves the cell; a middle tile lowers the
  column and leaves the cell; the last tile of a row lowers the column and adds its sum to the cell. At the points that
  leave the cell alone the pipeline hands it on unchanged, so at every later point the body finds in it what the point
  before left (`before0_2`, by looking back through the untouched points). The cell is written back to the result array
  once, after the last point. From this proof data the body obligation holds at every point, the launch theorem gives the
  run of the whole program with the result array's final contents named, and the argument arrays are unchanged.
-/
import proofs.«143847_j31044023616212_1_alg».proof.Proof.K.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- In case A the stores into the column of minima cover it. -/
theorem scover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) (y : S1024x1.Idx) :
    ∃ pc ∈ (kernelRun0_A c i arg3 harg3 arg4 harg4 arg5 harg5 arg6 harg6 hc0 hc1 hc2 x0 x1).1.2, y ∈ pc.1.set :=
  View.cover_of_tiledL (kernelRun0_A c i arg3 harg3 arg4 harg4 arg5 harg5 arg6 harg6 hc0 hc1 hc2 x0 x1).1.2 S1024x1.size (by sl_kernel_rfl) y

/-- What case A leaves in the column of minima: its written pieces read back. -/
def sout0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) : Vec F S1024x1 .f32 :=
  VS0_0.read (Elt F) (VS0_0.writes (Elt F) VS0_0.junk (kernelRun0_A c i arg3 harg3 arg4 harg4 arg5 harg5 arg6 harg6 hc0 hc1 hc2 x0 x1).1.2)

/-- In case A the store into the output cell covers it. -/
theorem ocover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) (y : S1x1.Idx) :
    ∃ pc ∈ (kernelRun0_A c i arg3 harg3 arg4 harg4 arg5 harg5 arg6 harg6 hc0 hc1 hc2 x0 x1).1.1, y ∈ pc.1.set :=
  View.cover_of_tiledL (kernelRun0_A c i arg3 harg3 arg4 harg4 arg5 harg5 arg6 harg6 hc0 hc1 hc2 x0 x1).1.1 S1x1.size (by sl_kernel_rfl) y

/-- What case A leaves in the output cell: its written piece read back. -/
def out0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) : Vec F S1x1 .f32 :=
  VO0_2.read (Elt F) (VO0_2.writes (Elt F) VO0_2.junk (kernelRun0_A c i arg3 harg3 arg4 harg4 arg5 harg5 arg6 harg6 hc0 hc1 hc2 x0 x1).1.1)

/-- In case B the stores into the column of minima cover it. -/
theorem scover0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) (y : S1024x1.Idx) :
    ∃ pc ∈ (kernelRun0_B c i arg3 harg3 arg4 harg4 arg5 harg5 arg6 harg6 hc0 hc1 hc2 x0 x1 xo xs0).1, y ∈ pc.1.set :=
  View.cover_of_tiledL (kernelRun0_B c i arg3 harg3 arg4 harg4 arg5 harg5 arg6 harg6 hc0 hc1 hc2 x0 x1 xo xs0).1 S1024x1.size (by sl_kernel_rfl) y

/-- What case B leaves in the column of minima: its written pieces read back. -/
def sout0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) : Vec F S1024x1 .f32 :=
  VS0_0.read (Elt F) (VS0_0.writes (Elt F) VS0_0.junk (kernelRun0_B c i arg3 harg3 arg4 harg4 arg5 harg5 arg6 harg6 hc0 hc1 hc2 x0 x1 xo xs0).1)

/-- In case C the stores into the column of minima cover it. -/
theorem scover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) (y : S1024x1.Idx) :
    ∃ pc ∈ (kernelRun0_C c i arg3 harg3 arg4 harg4 arg5 harg5 arg6 harg6 hc0 hc1 hc2 x0 x1 xo xs0).1.2, y ∈ pc.1.set :=
  View.cover_of_tiledL (kernelRun0_C c i arg3 harg3 arg4 harg4 arg5 harg5 arg6 harg6 hc0 hc1 hc2 x0 x1 xo xs0).1.2 S1024x1.size (by sl_kernel_rfl) y

/-- What case C leaves in the column of minima: its written pieces read back. -/
def sout0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) : Vec F S1024x1 .f32 :=
  VS0_0.read (Elt F) (VS0_0.writes (Elt F) VS0_0.junk (kernelRun0_C c i arg3 harg3 arg4 harg4 arg5 harg5 arg6 harg6 hc0 hc1 hc2 x0 x1 xo xs0).1.2)

/-- In case C the store into the output cell covers it. -/
theorem ocover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) (y : S1x1.Idx) :
    ∃ pc ∈ (kernelRun0_C c i arg3 harg3 arg4 harg4 arg5 harg5 arg6 harg6 hc0 hc1 hc2 x0 x1 xo xs0).1.1, y ∈ pc.1.set :=
  View.cover_of_tiledL (kernelRun0_C c i arg3 harg3 arg4 harg4 arg5 harg5 arg6 harg6 hc0 hc1 hc2 x0 x1 xo xs0).1.1 S1x1.size (by sl_kernel_rfl) y

/-- What case C leaves in the output cell: its written piece read back. -/
def out0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) : Vec F S1x1 .f32 :=
  VO0_2.read (Elt F) (VO0_2.writes (Elt F) VO0_2.junk (kernelRun0_C c i arg3 harg3 arg4 harg4 arg5 harg5 arg6 harg6 hc0 hc1 hc2 x0 x1 xo xs0).1.1)

/-- In case D the stores into the column of minima cover it. -/
theorem scover0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) (y : S1024x1.Idx) :
    ∃ pc ∈ (kernelRun0_D c i arg3 harg3 arg4 harg4 arg5 harg5 arg6 harg6 hc0 hc1 hc2 x0 x1 xo).1, y ∈ pc.1.set :=
  View.cover_of_tiledL (kernelRun0_D c i arg3 harg3 arg4 harg4 arg5 harg5 arg6 harg6 hc0 hc1 hc2 x0 x1 xo).1 S1024x1.size (by sl_kernel_rfl) y

/-- What case D leaves in the column of minima: its written pieces read back. -/
def sout0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) : Vec F S1024x1 .f32 :=
  VS0_0.read (Elt F) (VS0_0.writes (Elt F) VS0_0.junk (kernelRun0_D c i arg3 harg3 arg4 harg4 arg5 harg5 arg6 harg6 hc0 hc1 hc2 x0 x1 xo).1)

/-! ## The conditions at a point, from its position -/

theorem lt128 (t : Fin cfg0.N) : t.val < 128 := lt_of_lt_of_eq t.isLt (show cfg0.N = 128 from N_0)
theorem c0_of (t : Fin cfg0.N) (h : t.val = 0) : cond0_0 (grid0.coords t) := (hcond0_0 t).mpr (by omega)
theorem nc0_of (t : Fin cfg0.N) (h : ¬t.val = 0) : ¬cond0_0 (grid0.coords t) := fun hc => by
  have := (hcond0_0 t).mp hc; have := lt128 t; omega
theorem c1_of (t : Fin cfg0.N) (h : t.val % 8 = 0) : cond0_1 (grid0.coords t) := (hcond0_1 t).mpr h
theorem nc1_of (t : Fin cfg0.N) (h : ¬t.val % 8 = 0) : ¬cond0_1 (grid0.coords t) := fun hc => h ((hcond0_1 t).mp hc)
theorem c2_of (t : Fin cfg0.N) (h : t.val % 8 = 7) : cond0_2 (grid0.coords t) := (hcond0_2 t).mpr h
theorem nc2_of (t : Fin cfg0.N) (h : ¬t.val % 8 = 7) : ¬cond0_2 (grid0.coords t) := fun hc => h ((hcond0_2 t).mp hc)

/-! ## What the output cell and the column of minima hold after each point -/

/-- The output cell (first component) and the column of running minima (second) after the body at position `n`. -/
def outsAt0 (c : Dev nD) : (n : ℕ) → n < cfg0.N → Vec F S1x1 .f32 × Vec F S1024x1 .f32
  | 0, hn =>
    (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (c0_of ⟨0, hn⟩ rfl) (c1_of ⟨0, hn⟩ rfl) (nc2_of ⟨0, hn⟩ (by show ¬(0 : ℕ) % 8 = 7; decide)) (iblk m c 0 ⟨0, hn⟩) (iblk m c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (c0_of ⟨0, hn⟩ rfl) (c1_of ⟨0, hn⟩ rfl) (nc2_of ⟨0, hn⟩ (by show ¬(0 : ℕ) % 8 = 7; decide)) (iblk m c 0 ⟨0, hn⟩) (iblk m c 1 ⟨0, hn⟩))
  | n + 1, hn =>
    if h1 : (n + 1) % 8 = 0 then
      ((outsAt0 c n (Nat.lt_of_succ_lt hn)).1,
       sout0_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (c1_of ⟨n + 1, hn⟩ h1) (nc2_of ⟨n + 1, hn⟩ (fun h => by have h1' : (n + 1) % 8 = 0 := h1; have h' : (n + 1) % 8 = 7 := h; omega)) (iblk m c 0 ⟨n + 1, hn⟩) (iblk m c 1 ⟨n + 1, hn⟩) (outsAt0 c n (Nat.lt_of_succ_lt hn)).1)
    else if h2 : (n + 1) % 8 = 7 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (nc1_of ⟨n + 1, hn⟩ h1) (c2_of ⟨n + 1, hn⟩ h2) (iblk m c 0 ⟨n + 1, hn⟩) (iblk m c 1 ⟨n + 1, hn⟩) (outsAt0 c n (Nat.lt_of_succ_lt hn)).1 (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (nc1_of ⟨n + 1, hn⟩ h1) (c2_of ⟨n + 1, hn⟩ h2) (iblk m c 0 ⟨n + 1, hn⟩) (iblk m c 1 ⟨n + 1, hn⟩) (outsAt0 c n (Nat.lt_of_succ_lt hn)).1 (outsAt0 c n (Nat.lt_of_succ_lt hn)).2)
    else
      ((outsAt0 c n (Nat.lt_of_succ_lt hn)).1,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (nc1_of ⟨n + 1, hn⟩ h1) (nc2_of ⟨n + 1, hn⟩ h2) (iblk m c 0 ⟨n + 1, hn⟩) (iblk m c 1 ⟨n + 1, hn⟩) (outsAt0 c n (Nat.lt_of_succ_lt hn)).1 (outsAt0 c n (Nat.lt_of_succ_lt hn)).2)

/-- The point before `t`. -/
abbrev prev (t : Fin cfg0.N) : t.val - 1 < cfg0.N := Nat.lt_of_le_of_lt (Nat.sub_le _ _) t.isLt

/-- At the first point: the cell cleared, the column started from +∞. -/
theorem outsAt0_A (c : Dev nD) (t : Fin cfg0.N) (hz : t.val = 0) :
    outsAt0 m c t.val t.isLt =
      (out0_A c (grid0.coords t) (ms0_0 t) (hs0_0 t) (ms0_1 t) (hs0_1 t) (ms0_2 t) (hs0_2 t) scM0_0 (Memref.isWhole_whole _) (c0_of t hz) (c1_of t (by omega)) (nc2_of t (by omega)) (iblk m c 0 t) (iblk m c 1 t),
       sout0_A c (grid0.coords t) (ms0_0 t) (hs0_0 t) (ms0_1 t) (hs0_1 t) (ms0_2 t) (hs0_2 t) scM0_0 (Memref.isWhole_whole _) (c0_of t hz) (c1_of t (by omega)) (nc2_of t (by omega)) (iblk m c 0 t) (iblk m c 1 t)) := by
  obtain ⟨n, hn⟩ := t
  cases n with
  | zero => rfl
  | succ n => exact absurd hz (Nat.succ_ne_zero n)

/-- At the first tile of a later row of tiles: the cell as the point before left it, the column restarted. -/
theorem outsAt0_D (c : Dev nD) (t : Fin cfg0.N) (hz : ¬t.val = 0) (h1 : t.val % 8 = 0) :
    outsAt0 m c t.val t.isLt =
      ((outsAt0 m c (t.val - 1) (prev t)).1,
       sout0_D c (grid0.coords t) (ms0_0 t) (hs0_0 t) (ms0_1 t) (hs0_1 t) (ms0_2 t) (hs0_2 t) scM0_0 (Memref.isWhole_whole _) (nc0_of t hz) (c1_of t h1) (nc2_of t (by omega)) (iblk m c 0 t) (iblk m c 1 t) (outsAt0 m c (t.val - 1) (prev t)).1) := by
  obtain ⟨n, hn⟩ := t
  cases n with
  | zero => exact absurd rfl hz
  | succ n => exact (dif_pos h1).trans rfl

/-- At the last tile of a row of tiles: the column lowered, its sum added to the cell. -/
theorem outsAt0_C (c : Dev nD) (t : Fin cfg0.N) (hz : ¬t.val = 0) (h1 : ¬t.val % 8 = 0) (h2 : t.val % 8 = 7) :
    outsAt0 m c t.val t.isLt =
      (out0_C c (grid0.coords t) (ms0_0 t) (hs0_0 t) (ms0_1 t) (hs0_1 t) (ms0_2 t) (hs0_2 t) scM0_0 (Memref.isWhole_whole _) (nc0_of t hz) (nc1_of t h1) (c2_of t h2) (iblk m c 0 t) (iblk m c 1 t) (outsAt0 m c (t.val - 1) (prev t)).1 (outsAt0 m c (t.val - 1) (prev t)).2,
       sout0_C c (grid0.coords t) (ms0_0 t) (hs0_0 t) (ms0_1 t) (hs0_1 t) (ms0_2 t) (hs0_2 t) scM0_0 (Memref.isWhole_whole _) (nc0_of t hz) (nc1_of t h1) (c2_of t h2) (iblk m c 0 t) (iblk m c 1 t) (outsAt0 m c (t.val - 1) (prev t)).1 (outsAt0 m c (t.val - 1) (prev t)).2) := by
  obtain ⟨n, hn⟩ := t
  cases n with
  | zero => exact absurd rfl hz
  | succ n => exact (dif_neg h1).trans ((dif_pos h2).trans rfl)

/-- At a middle tile: the cell as the point before left it, the column lowered. -/
theorem outsAt0_B (c : Dev nD) (t : Fin cfg0.N) (hz : ¬t.val = 0) (h1 : ¬t.val % 8 = 0) (h2 : ¬t.val % 8 = 7) :
    outsAt0 m c t.val t.isLt =
      ((outsAt0 m c (t.val - 1) (prev t)).1,
       sout0_B c (grid0.coords t) (ms0_0 t) (hs0_0 t) (ms0_1 t) (hs0_1 t) (ms0_2 t) (hs0_2 t) scM0_0 (Memref.isWhole_whole _) (nc0_of t hz) (nc1_of t h1) (nc2_of t h2) (iblk m c 0 t) (iblk m c 1 t) (outsAt0 m c (t.val - 1) (prev t)).1 (outsAt0 m c (t.val - 1) (prev t)).2) := by
  obtain ⟨n, hn⟩ := t
  cases n with
  | zero => exact absurd rfl hz
  | succ n => exact (dif_neg h1).trans ((dif_neg h2).trans rfl)

/-- Where the body leaves the cell alone it holds what it held after the point before. -/
theorem outsAt0_fst_idle (c : Dev nD) (t : Fin cfg0.N) (hz : ¬t.val = 0) (h2 : ¬t.val % 8 = 7) :
    (outsAt0 m c t.val t.isLt).1 = (outsAt0 m c (t.val - 1) (prev t)).1 := by
  by_cases h1 : t.val % 8 = 0
  · rw [outsAt0_D m c t hz h1]
  · rw [outsAt0_B m c t hz h1 h2]

/-! ## The invariant: the column of minima between points -/

/-- Before the first point the column holds anything; before a later point what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output cell at
    `(outsAt0 t).1`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The output cell is not written back before the last point. -/
theorem noflush0_2 (t : Fin cfg0.N) (h : t.val ≠ 127) : (cfg0.win 2).flush t = false :=
  Bool.eq_false_iff.mpr fun hf => by have := (flush0_2 t).mp hf; have := lt128 t; omega

/-- What the body leaves in the output cell at a point that touches it is kept whole (the window's block is never cut). -/
theorem kept0_2 (c : Dev nD) (t : Fin cfg0.N) (d) : (dats m 0 c).kept 2 t d = (dats m 0 c).after 2 t := by
  unfold Dat.kept
  rw [Pipeline.fill_of_clip_none (cfg := cfg0) (2 : Fin cfg0.W) _ (fun _ => rfl) d ((dats m 0 c).after 2 t), Window.fill_cut]

/-- At every point but the first the body finds in the output cell what the point before left there: the cell is
    not written back in between, and through the points that leave it alone it is handed on unchanged. -/
theorem before0_2_succ (c : Dev nD) : ∀ (n : ℕ) (hn : n + 1 < cfg0.N) (d),
    (dats m 0 c).before 2 ⟨n + 1, hn⟩ d = (outsAt0 m c n (Nat.lt_of_succ_lt hn)).1 := by
  intro n
  induction n with
  | zero =>
    intro hn d
    rw [Dat.before_of_pos _ 2 ⟨1, hn⟩ (by show (1 : ℕ) ≠ 0; decide) ((cfg0.win 2).fetch_out rfl _) d]
    rw [show ((cfg0.win 2).flush ⟨(⟨1, hn⟩ : Fin cfg0.N).val - 1, prev ⟨1, hn⟩⟩) = false from
      noflush0_2 _ (by show (1 - 1 : ℕ) ≠ 127; decide)]
    rw [if_neg Bool.false_ne_true]
    unfold Dat.left
    split
    · rename_i hidle
      exact absurd (show (1 - 1 : ℕ) % 128 = 0 from rfl) ((idleAt0_2 _).mp hidle).1
    · rw [kept0_2, after0_2]; rfl
  | succ n ih =>
    intro hn d
    have hN := lt128 ⟨n + 1 + 1, hn⟩
    rw [Dat.before_of_pos _ 2 ⟨n + 1 + 1, hn⟩ (Nat.succ_ne_zero _) ((cfg0.win 2).fetch_out rfl _) d]
    rw [show ((cfg0.win 2).flush ⟨(⟨n + 1 + 1, hn⟩ : Fin cfg0.N).val - 1, prev ⟨n + 1 + 1, hn⟩⟩) = false from
      noflush0_2 _ (by show n + 1 + 1 - 1 ≠ 127; dsimp only at hN; omega)]
    rw [if_neg Bool.false_ne_true]
    unfold Dat.left
    split
    · rename_i hidle
      have h2 : ¬(n + 1) % 8 = 7 := ((idleAt0_2 _).mp hidle).2
      rw [show (⟨(⟨n + 1 + 1, hn⟩ : Fin cfg0.N).val - 1, prev ⟨n + 1 + 1, hn⟩⟩ : Fin cfg0.N) = ⟨n + 1, Nat.lt_of_succ_lt hn⟩ from rfl]
      rw [ih (Nat.lt_of_succ_lt hn) d]
      exact (outsAt0_fst_idle m c ⟨n + 1, Nat.lt_of_succ_lt hn⟩ (Nat.succ_ne_zero n) h2).symm
    · rw [kept0_2, after0_2]; rfl

theorem before0_2 (c : Dev nD) (t : Fin cfg0.N) (hz : ¬t.val = 0) (d) :
    (dats m 0 c).before 2 t d = (outsAt0 m c (t.val - 1) (prev t)).1 := by
  obtain ⟨n, hn⟩ := t
  cases n with
  | zero => exact absurd rfl hz
  | succ n => exact before0_2_succ m c n hn d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0_0 (c : Dev nD) (t : Fin cfg0.N) :
    (dats m 0 c).leavesExact 0 t = owns (c : Thread nD τ) (ms0_0 t) fullShare (iblk m c 0 t) := by
  rw [← after0_0 m c t] <;> rfl
theorem leaves0_1 (c : Dev nD) (t : Fin cfg0.N) :
    (dats m 0 c).leavesExact 1 t = owns (c : Thread nD τ) (ms0_1 t) fullShare (iblk m c 1 t) := by
  rw [← after0_1 m c t] <;> rfl
/-- Where the body stores into the output cell it leaves `(outsAt0 t).1` there. -/
theorem leaves0_2_live (c : Dev nD) (t : Fin cfg0.N) (h : t.val % 128 = 0 ∨ t.val % 8 = 7) :
    (dats m 0 c).leavesExact 2 t = owns (c : Thread nD τ) (ms0_2 t) fullShare ((outsAt0 m c t.val t.isLt).1) := by
  have hi : cfg0.idle 2 (cfg0.grid.coords t) = false :=
    Bool.eq_false_iff.mpr fun hh => by have := (idleAt0_2 t).mp hh; omega
  rw [← after0_2 m c t]; unfold Dat.leavesExact; rw [hi]
/-- Where it does not, it hands the cell back as it found it. -/
theorem leaves0_2_idle (c : Dev nD) (t : Fin cfg0.N) (hz : ¬t.val % 128 = 0) (h2 : ¬t.val % 8 = 7) :
    (dats m 0 c).leavesExact 2 t = iprop(∃ d, owns (c : Thread nD τ) (ms0_2 t) fullShare ((dats m 0 c).before 2 t d)) :=
  Dat.leavesExact_idle _ 2 t ((idleAt0_2 t).mpr ⟨hz, h2⟩) (noflush0_2 t (by omega))

set_option maxHeartbeats 6400000 in
/-- The body at any point: the inputs' buffers hold their blocks; the position says which case the point is in; the
    output cell and the column of minima hold what the point before left (anything at the first point); so that case's run
    applies, and hands back the column at this point's contents and the cell at this point's contents or untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1]
  have hN := lt128 t
  by_cases hz : t.val = 0
  · rw [leaves0_2_live m c t (.inl (by omega))]
    rw [outsAt0_A m c t hz]
    dsimp only
    unfold out0_A sout0_A
    rw [PhiS_castSucc m c t, PhiS_zero m c _ _ hz, PhiA0_eq]
    iintro ⟨⟨HS0, Hg⟩, Ho, ⟨%d0, H0⟩, ⟨%d1, H1⟩, ⟨%d2, H2⟩⟩
    iapply ((kernelRun0_A c (grid0.coords t) _ _ _ _ _ _ _ _ (c0_of t hz) (c1_of t (by omega)) (nc2_of t (by omega)) (iblk m c 0 t) (iblk m c 1 t)).2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_A c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (ocover0_A c _ _ _ _ _ _ _ _ _ _ _ _ _ _)
  · rw [PhiS_castSucc m c t, PhiS_pos m c _ _ hz]
    simp only [before0_2 m c t hz]
    by_cases h1 : t.val % 8 = 0
    · rw [leaves0_2_idle m c t (by omega) (by omega)]
      simp only [before0_2 m c t hz]
      rw [outsAt0_D m c t hz h1]
      dsimp only
      unfold sout0_D
      iintro ⟨⟨HS0, Hg⟩, Ho, ⟨%d0, H0⟩, ⟨%d1, H1⟩, ⟨%d2, H2⟩⟩
      iapply ((kernelRun0_D c (grid0.coords t) _ _ _ _ _ _ _ _ (nc0_of t hz) (c1_of t h1) (nc2_of t (by omega)) (iblk m c 0 t) (iblk m c 1 t) _).2 Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_D c _ _ _ _ _ _ _ _ _ _ _ _ _ _ _)
        iexact Hg
      isplitl [Ho]; · iexact Ho
      isplitl [H0]; · iexact H0
      isplitl [H1]; · iexact H1
      iexists d2; iexact H2
    · by_cases h2 : t.val % 8 = 7
      · rw [leaves0_2_live m c t (.inr h2)]
        rw [outsAt0_C m c t hz h1 h2]
        dsimp only
        unfold out0_C sout0_C
        iintro ⟨⟨HS0, Hg⟩, Ho, ⟨%d0, H0⟩, ⟨%d1, H1⟩, ⟨%d2, H2⟩⟩
        iapply ((kernelRun0_C c (grid0.coords t) _ _ _ _ _ _ _ _ (nc0_of t hz) (nc1_of t h1) (c2_of t h2) (iblk m c 0 t) (iblk m c 1 t) _ _).2 Set.univ _)
        isplitl [H0]; · iexact H0
        isplitl [H1]; · iexact H1
        isplitl [H2]; · iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (ocover0_C c _ _ _ _ _ _ _ _ _ _ _ _ _ _ _ _)
      · rw [leaves0_2_idle m c t (by omega) h2]
        simp only [before0_2 m c t hz]
        rw [outsAt0_B m c t hz h1 h2]
        dsimp only
        unfold sout0_B
        iintro ⟨⟨HS0, Hg⟩, Ho, ⟨%d0, H0⟩, ⟨%d1, H1⟩, ⟨%d2, H2⟩⟩
        iapply ((kernelRun0_B c (grid0.coords t) _ _ _ _ _ _ _ _ (nc0_of t hz) (nc1_of t h1) (nc2_of t h2) (iblk m c 0 t) (iblk m c 1 t) _ _).2 Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _)
          iexact Hg
        isplitl [Ho]; · iexact Ho
        isplitl [H0]; · iexact H0
        isplitl [H1]; · iexact H1
        iexists d2; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS0, Hg⟩
  isplitl [HS0]
  · iexists _; iexact HS0
  iexact Hg

/-! ## The run and the frame -/

set_option backward.isDefEq.respectTransparency.types false in
/-- Every weakly fair execution of the program terminates; at the end every array of the pipeline holds what the proof
    data computes (the result array: the output cell after the last point) and every other buffer what the host
    operation after the region makes of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Conds.lean ====
/-
  The kernel body's three branches and where they are taken on the 2 × 8 × 8 grid, read at the linear position
  t = 64·b + 8·i + j of the point (b, i, j): the output cell is cleared at t = 0 only; the column of running minima is
  reset where j = 0 (t ≡ 0 mod 8); the column is summed into the output cell where j = 7 (t ≡ 7 mod 8). The output's
  staging cell is left untouched (idle) exactly where neither the first nor the third branch is taken. Also the names
  of each window's current staging buffer and of the column of minima the body keeps between points.
-/
import proofs.«143847_j31044023616212_1_alg».proof.Proof.Gen.KernelIdeal.Frame
import proofs.«143847_j31044023616212_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The first branch (clear the output cell): taken at the grid's first point only. -/
abbrev cond0_0 (i : grid0.Coords) : Prop := k0_cond1 i = 1#1
theorem hcond0_0 : ∀ t : Fin cfg0.N, cond0_0 (grid0.coords t) ↔ t.val % 128 = 0 :=
  (by decide +kernel : ∀ t : Fin grid0.N, cond0_0 (grid0.coords t) ↔ t.val % 128 = 0)

/-- The second branch (reset the column of minima to +∞): taken where the last coordinate is 0. -/
abbrev cond0_1 (i : grid0.Coords) : Prop := (Scalar.cmpi .ne (Scalar.extui (Scalar.cmpi .eq (BitVec.ofNat 32 (i 2).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

/-- The third branch (add the column's sum to the output cell): taken where the last coordinate is 7. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- The output's staging cell is untouched exactly where the body neither clears it nor adds to it. -/
theorem idleAt0_2 : ∀ t : Fin cfg0.N, cfg0.idle 2 (grid0.coords t) = true ↔ (¬ t.val % 128 = 0 ∧ ¬ t.val % 8 = 7) :=
  (by decide +kernel : ∀ t : Fin grid0.N, cfg0.idle 2 (grid0.coords t) = true ↔ (¬ t.val % 128 = 0 ∧ ¬ t.val % 8 = 7))

/-! ## The buffers the body is called on -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The column of 1024 running minima, a buffer of the kernel's own kept between points. -/
abbrev scM0_0 : Memref sig .tc .vmem S1024x1 .f32 := Memref.whole cc0_scratch0
abbrev VS0_0 : View sig .tc .vmem S1024x1 .f32 := scM0_0.view
/-- The output cell's shape as a view, through which what the body leaves in it is stated. -/
abbrev VO0_2 : View sig .tc .vmem S1x1 .f32 := (Memref.whole cc0_stg2_0 : Memref sig .tc .vmem S1x1 .f32).view

/-- What the launch hands the body besides the windows: the column of minima at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body at the grid's first point: the output cell is cleared, the column of minima is reset to +∞ and then lowered by the tile's row minima; nothing is added to the output.
-/
import proofs.«143847_j31044023616212_1_alg».proof.Proof.KI.Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) :
    { L : List (View.Piece (Elt F) S1x1 .f32) × List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?L2, ?LS), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.KernelIdeal.Hand

end
-- ==== Proof.KI.RunB.lean ====
/-
  The kernel body at a point in the middle of a row of tiles: the column of minima, as the point before left it, is lowered by the tile's row minima; the output cell is not touched.
-/
import proofs.«143847_j31044023616212_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) :
    { L : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs0
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f L)) -∗ K ⟨⟩))
          ⊢ wp frame (wpE (defs₀ (F := F)) Variants.none c none) E (cc0__chamfer_kernel i arg3 harg3 arg4 harg4 arg5 harg5 arg6 harg6) K } := by
  refine ⟨?LS, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RunC.lean ====
/-
  The kernel body at the last tile of a row of tiles: the column of minima, as the point before left it, is lowered by the tile's row minima, and the sum of the lowered column is added to the output cell as the point before left it.
-/
import proofs.«143847_j31044023616212_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) :
    { L : List (View.Piece (Elt F) S1x1 .f32) × List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?L2, ?LS), fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS0

end Cert.KernelIdeal.Hand

end
-- ==== Proof.KI.RunD.lean ====
/-
  The kernel body at the first tile of a later row of tiles: the column of minima is reset to +∞ and then lowered by the tile's row minima; the output cell is not touched.
-/
import proofs.«143847_j31044023616212_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers in this case: the two input blocks are read and left as they were; what the stores leave
    in the output cell and in the column of minima is returned as the lists of written pieces the run finds. -/
noncomputable def kernelRun0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) :
    { L : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f L)) -∗ K ⟨⟩))
          ⊢ wp frame (wpE (defs₀ (F := F)) Variants.none c none) E (cc0__chamfer_kernel i arg3 harg3 arg4 harg4 arg5 harg5 arg6 harg6) K } := by
  refine ⟨?LS, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.Frame.lean ====
/-
  The kernel's run over the whole grid, with what it leaves named.

  After the body at the point of linear position t the output's staging cell holds `(outsAt0 t).1` and the column of
  running minima `(outsAt0 t).2`, by recursion on t through the four cases: the first point clears the cell and starts the
  column from +∞; the first tile of a later row of tiles restarts the column and leaves the cell; a middle tile lowers the
  column and leaves the cell; the last tile of a row lowers the column and adds its sum to the cell. At the points that
  leave the cell alone the pipeline hands it on unchanged, so at every later point the body finds in it what the point
  before left (`before0_2`, by looking back through the untouched points). The cell is written back to the result array
  once, after the last point. From this proof data the body obligation holds at every point, the launch theorem gives the
  run of the whole program with the result array's final contents named, and the argument arrays are unchanged.
-/
import proofs.«143847_j31044023616212_1_alg».proof.Proof.KI.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- In case A the stores into the column of minima cover it. -/
theorem scover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) (y : S1024x1.Idx) :
    ∃ pc ∈ (kernelRun0_A c i arg3 harg3 arg4 harg4 arg5 harg5 arg6 harg6 hc0 hc1 hc2 x0 x1).1.2, y ∈ pc.1.set :=
  View.cover_of_tiledL (kernelRun0_A c i arg3 harg3 arg4 harg4 arg5 harg5 arg6 harg6 hc0 hc1 hc2 x0 x1).1.2 S1024x1.size (by sl_kernel_rfl) y

/-- What case A leaves in the column of minima: its written pieces read back. -/
def sout0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) : Vec F S1024x1 .f32 :=
  VS0_0.read (Elt F) (VS0_0.writes (Elt F) VS0_0.junk (kernelRun0_A c i arg3 harg3 arg4 harg4 arg5 harg5 arg6 harg6 hc0 hc1 hc2 x0 x1).1.2)

/-- In case A the store into the output cell covers it. -/
theorem ocover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) (y : S1x1.Idx) :
    ∃ pc ∈ (kernelRun0_A c i arg3 harg3 arg4 harg4 arg5 harg5 arg6 harg6 hc0 hc1 hc2 x0 x1).1.1, y ∈ pc.1.set :=
  View.cover_of_tiledL (kernelRun0_A c i arg3 harg3 arg4 harg4 arg5 harg5 arg6 harg6 hc0 hc1 hc2 x0 x1).1.1 S1x1.size (by sl_kernel_rfl) y

/-- What case A leaves in the output cell: its written piece read back. -/
def out0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) : Vec F S1x1 .f32 :=
  VO0_2.read (Elt F) (VO0_2.writes (Elt F) VO0_2.junk (kernelRun0_A c i arg3 harg3 arg4 harg4 arg5 harg5 arg6 harg6 hc0 hc1 hc2 x0 x1).1.1)

/-- In case B the stores into the column of minima cover it. -/
theorem scover0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) (y : S1024x1.Idx) :
    ∃ pc ∈ (kernelRun0_B c i arg3 harg3 arg4 harg4 arg5 harg5 arg6 harg6 hc0 hc1 hc2 x0 x1 xo xs0).1, y ∈ pc.1.set :=
  View.cover_of_tiledL (kernelRun0_B c i arg3 harg3 arg4 harg4 arg5 harg5 arg6 harg6 hc0 hc1 hc2 x0 x1 xo xs0).1 S1024x1.size (by sl_kernel_rfl) y

/-- What case B leaves in the column of minima: its written pieces read back. -/
def sout0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) : Vec F S1024x1 .f32 :=
  VS0_0.read (Elt F) (VS0_0.writes (Elt F) VS0_0.junk (kernelRun0_B c i arg3 harg3 arg4 harg4 arg5 harg5 arg6 harg6 hc0 hc1 hc2 x0 x1 xo xs0).1)

/-- In case C the stores into the column of minima cover it. -/
theorem scover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) (y : S1024x1.Idx) :
    ∃ pc ∈ (kernelRun0_C c i arg3 harg3 arg4 harg4 arg5 harg5 arg6 harg6 hc0 hc1 hc2 x0 x1 xo xs0).1.2, y ∈ pc.1.set :=
  View.cover_of_tiledL (kernelRun0_C c i arg3 harg3 arg4 harg4 arg5 harg5 arg6 harg6 hc0 hc1 hc2 x0 x1 xo xs0).1.2 S1024x1.size (by sl_kernel_rfl) y

/-- What case C leaves in the column of minima: its written pieces read back. -/
def sout0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) : Vec F S1024x1 .f32 :=
  VS0_0.read (Elt F) (VS0_0.writes (Elt F) VS0_0.junk (kernelRun0_C c i arg3 harg3 arg4 harg4 arg5 harg5 arg6 harg6 hc0 hc1 hc2 x0 x1 xo xs0).1.2)

/-- In case C the store into the output cell covers it. -/
theorem ocover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) (y : S1x1.Idx) :
    ∃ pc ∈ (kernelRun0_C c i arg3 harg3 arg4 harg4 arg5 harg5 arg6 harg6 hc0 hc1 hc2 x0 x1 xo xs0).1.1, y ∈ pc.1.set :=
  View.cover_of_tiledL (kernelRun0_C c i arg3 harg3 arg4 harg4 arg5 harg5 arg6 harg6 hc0 hc1 hc2 x0 x1 xo xs0).1.1 S1x1.size (by sl_kernel_rfl) y

/-- What case C leaves in the output cell: its written piece read back. -/
def out0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) : Vec F S1x1 .f32 :=
  VO0_2.read (Elt F) (VO0_2.writes (Elt F) VO0_2.junk (kernelRun0_C c i arg3 harg3 arg4 harg4 arg5 harg5 arg6 harg6 hc0 hc1 hc2 x0 x1 xo xs0).1.1)

/-- In case D the stores into the column of minima cover it. -/
theorem scover0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) (y : S1024x1.Idx) :
    ∃ pc ∈ (kernelRun0_D c i arg3 harg3 arg4 harg4 arg5 harg5 arg6 harg6 hc0 hc1 hc2 x0 x1 xo).1, y ∈ pc.1.set :=
  View.cover_of_tiledL (kernelRun0_D c i arg3 harg3 arg4 harg4 arg5 harg5 arg6 harg6 hc0 hc1 hc2 x0 x1 xo).1 S1024x1.size (by sl_kernel_rfl) y

/-- What case D leaves in the column of minima: its written pieces read back. -/
def sout0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) : Vec F S1024x1 .f32 :=
  VS0_0.read (Elt F) (VS0_0.writes (Elt F) VS0_0.junk (kernelRun0_D c i arg3 harg3 arg4 harg4 arg5 harg5 arg6 harg6 hc0 hc1 hc2 x0 x1 xo).1)

/-! ## The conditions at a point, from its position -/

theorem lt128 (t : Fin cfg0.N) : t.val < 128 := lt_of_lt_of_eq t.isLt (show cfg0.N = 128 from N_0)
theorem c0_of (t : Fin cfg0.N) (h : t.val = 0) : cond0_0 (grid0.coords t) := (hcond0_0 t).mpr (by omega)
theorem nc0_of (t : Fin cfg0.N) (h : ¬t.val = 0) : ¬cond0_0 (grid0.coords t) := fun hc => by
  have := (hcond0_0 t).mp hc; have := lt128 t; omega
theorem c1_of (t : Fin cfg0.N) (h : t.val % 8 = 0) : cond0_1 (grid0.coords t) := (hcond0_1 t).mpr h
theorem nc1_of (t : Fin cfg0.N) (h : ¬t.val % 8 = 0) : ¬cond0_1 (grid0.coords t) := fun hc => h ((hcond0_1 t).mp hc)
theorem c2_of (t : Fin cfg0.N) (h : t.val % 8 = 7) : cond0_2 (grid0.coords t) := (hcond0_2 t).mpr h
theorem nc2_of (t : Fin cfg0.N) (h : ¬t.val % 8 = 7) : ¬cond0_2 (grid0.coords t) := fun hc => h ((hcond0_2 t).mp hc)

/-! ## What the output cell and the column of minima hold after each point -/

/-- The output cell (first component) and the column of running minima (second) after the body at position `n`. -/
def outsAt0 (c : Dev nD) : (n : ℕ) → n < cfg0.N → Vec F S1x1 .f32 × Vec F S1024x1 .f32
  | 0, hn =>
    (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (c0_of ⟨0, hn⟩ rfl) (c1_of ⟨0, hn⟩ rfl) (nc2_of ⟨0, hn⟩ (by show ¬(0 : ℕ) % 8 = 7; decide)) (iblk m c 0 ⟨0, hn⟩) (iblk m c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (c0_of ⟨0, hn⟩ rfl) (c1_of ⟨0, hn⟩ rfl) (nc2_of ⟨0, hn⟩ (by show ¬(0 : ℕ) % 8 = 7; decide)) (iblk m c 0 ⟨0, hn⟩) (iblk m c 1 ⟨0, hn⟩))
  | n + 1, hn =>
    if h1 : (n + 1) % 8 = 0 then
      ((outsAt0 c n (Nat.lt_of_succ_lt hn)).1,
       sout0_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (c1_of ⟨n + 1, hn⟩ h1) (nc2_of ⟨n + 1, hn⟩ (fun h => by have h1' : (n + 1) % 8 = 0 := h1; have h' : (n + 1) % 8 = 7 := h; omega)) (iblk m c 0 ⟨n + 1, hn⟩) (iblk m c 1 ⟨n + 1, hn⟩) (outsAt0 c n (Nat.lt_of_succ_lt hn)).1)
    else if h2 : (n + 1) % 8 = 7 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (nc1_of ⟨n + 1, hn⟩ h1) (c2_of ⟨n + 1, hn⟩ h2) (iblk m c 0 ⟨n + 1, hn⟩) (iblk m c 1 ⟨n + 1, hn⟩) (outsAt0 c n (Nat.lt_of_succ_lt hn)).1 (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (nc1_of ⟨n + 1, hn⟩ h1) (c2_of ⟨n + 1, hn⟩ h2) (iblk m c 0 ⟨n + 1, hn⟩) (iblk m c 1 ⟨n + 1, hn⟩) (outsAt0 c n (Nat.lt_of_succ_lt hn)).1 (outsAt0 c n (Nat.lt_of_succ_lt hn)).2)
    else
      ((outsAt0 c n (Nat.lt_of_succ_lt hn)).1,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (nc0_of ⟨n + 1, hn⟩ (Nat.succ_ne_zero n)) (nc1_of ⟨n + 1, hn⟩ h1) (nc2_of ⟨n + 1, hn⟩ h2) (iblk m c 0 ⟨n + 1, hn⟩) (iblk m c 1 ⟨n + 1, hn⟩) (outsAt0 c n (Nat.lt_of_succ_lt hn)).1 (outsAt0 c n (Nat.lt_of_succ_lt hn)).2)

/-- The point before `t`. -/
abbrev prev (t : Fin cfg0.N) : t.val - 1 < cfg0.N := Nat.lt_of_le_of_lt (Nat.sub_le _ _) t.isLt

/-- At the first point: the cell cleared, the column started from +∞. -/
theorem outsAt0_A (c : Dev nD) (t : Fin cfg0.N) (hz : t.val = 0) :
    outsAt0 m c t.val t.isLt =
      (out0_A c (grid0.coords t) (ms0_0 t) (hs0_0 t) (ms0_1 t) (hs0_1 t) (ms0_2 t) (hs0_2 t) scM0_0 (Memref.isWhole_whole _) (c0_of t hz) (c1_of t (by omega)) (nc2_of t (by omega)) (iblk m c 0 t) (iblk m c 1 t),
       sout0_A c (grid0.coords t) (ms0_0 t) (hs0_0 t) (ms0_1 t) (hs0_1 t) (ms0_2 t) (hs0_2 t) scM0_0 (Memref.isWhole_whole _) (c0_of t hz) (c1_of t (by omega)) (nc2_of t (by omega)) (iblk m c 0 t) (iblk m c 1 t)) := by
  obtain ⟨n, hn⟩ := t
  cases n with
  | zero => rfl
  | succ n => exact absurd hz (Nat.succ_ne_zero n)

/-- At the first tile of a later row of tiles: the cell as the point before left it, the column restarted. -/
theorem outsAt0_D (c : Dev nD) (t : Fin cfg0.N) (hz : ¬t.val = 0) (h1 : t.val % 8 = 0) :
    outsAt0 m c t.val t.isLt =
      ((outsAt0 m c (t.val - 1) (prev t)).1,
       sout0_D c (grid0.coords t) (ms0_0 t) (hs0_0 t) (ms0_1 t) (hs0_1 t) (ms0_2 t) (hs0_2 t) scM0_0 (Memref.isWhole_whole _) (nc0_of t hz) (c1_of t h1) (nc2_of t (by omega)) (iblk m c 0 t) (iblk m c 1 t) (outsAt0 m c (t.val - 1) (prev t)).1) := by
  obtain ⟨n, hn⟩ := t
  cases n with
  | zero => exact absurd rfl hz
  | succ n => exact (dif_pos h1).trans rfl

/-- At the last tile of a row of tiles: the column lowered, its sum added to the cell. -/
theorem outsAt0_C (c : Dev nD) (t : Fin cfg0.N) (hz : ¬t.val = 0) (h1 : ¬t.val % 8 = 0) (h2 : t.val % 8 = 7) :
    outsAt0 m c t.val t.isLt =
      (out0_C c (grid0.coords t) (ms0_0 t) (hs0_0 t) (ms0_1 t) (hs0_1 t) (ms0_2 t) (hs0_2 t) scM0_0 (Memref.isWhole_whole _) (nc0_of t hz) (nc1_of t h1) (c2_of t h2) (iblk m c 0 t) (iblk m c 1 t) (outsAt0 m c (t.val - 1) (prev t)).1 (outsAt0 m c (t.val - 1) (prev t)).2,
       sout0_C c (grid0.coords t) (ms0_0 t) (hs0_0 t) (ms0_1 t) (hs0_1 t) (ms0_2 t) (hs0_2 t) scM0_0 (Memref.isWhole_whole _) (nc0_of t hz) (nc1_of t h1) (c2_of t h2) (iblk m c 0 t) (iblk m c 1 t) (outsAt0 m c (t.val - 1) (prev t)).1 (outsAt0 m c (t.val - 1) (prev t)).2) := by
  obtain ⟨n, hn⟩ := t
  cases n with
  | zero => exact absurd rfl hz
  | succ n => exact (dif_neg h1).trans ((dif_pos h2).trans rfl)

/-- At a middle tile: the cell as the point before left it, the column lowered. -/
theorem outsAt0_B (c : Dev nD) (t : Fin cfg0.N) (hz : ¬t.val = 0) (h1 : ¬t.val % 8 = 0) (h2 : ¬t.val % 8 = 7) :
    outsAt0 m c t.val t.isLt =
      ((outsAt0 m c (t.val - 1) (prev t)).1,
       sout0_B c (grid0.coords t) (ms0_0 t) (hs0_0 t) (ms0_1 t) (hs0_1 t) (ms0_2 t) (hs0_2 t) scM0_0 (Memref.isWhole_whole _) (nc0_of t hz) (nc1_of t h1) (nc2_of t h2) (iblk m c 0 t) (iblk m c 1 t) (outsAt0 m c (t.val - 1) (prev t)).1 (outsAt0 m c (t.val - 1) (prev t)).2) := by
  obtain ⟨n, hn⟩ := t
  cases n with
  | zero => exact absurd rfl hz
  | succ n => exact (dif_neg h1).trans ((dif_neg h2).trans rfl)

/-- Where the body leaves the cell alone it holds what it held after the point before. -/
theorem outsAt0_fst_idle (c : Dev nD) (t : Fin cfg0.N) (hz : ¬t.val = 0) (h2 : ¬t.val % 8 = 7) :
    (outsAt0 m c t.val t.isLt).1 = (outsAt0 m c (t.val - 1) (prev t)).1 := by
  by_cases h1 : t.val % 8 = 0
  · rw [outsAt0_D m c t hz h1]
  · rw [outsAt0_B m c t hz h1 h2]

/-! ## The invariant: the column of minima between points -/

/-- Before the first point the column holds anything; before a later point what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output cell at
    `(outsAt0 t).1`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The output cell is not written back before the last point. -/
theorem noflush0_2 (t : Fin cfg0.N) (h : t.val ≠ 127) : (cfg0.win 2).flush t = false :=
  Bool.eq_false_iff.mpr fun hf => by have := (flush0_2 t).mp hf; have := lt128 t; omega

/-- What the body leaves in the output cell at a point that touches it is kept whole (the window's block is never cut). -/
theorem kept0_2 (c : Dev nD) (t : Fin cfg0.N) (d) : (dats m 0 c).kept 2 t d = (dats m 0 c).after 2 t := by
  unfold Dat.kept
  rw [Pipeline.fill_of_clip_none (cfg := cfg0) (2 : Fin cfg0.W) _ (fun _ => rfl) d ((dats m 0 c).after 2 t), Window.fill_cut]

/-- At every point but the first the body finds in the output cell what the point before left there: the cell is
    not written back in between, and through the points that leave it alone it is handed on unchanged. -/
theorem before0_2_succ (c : Dev nD) : ∀ (n : ℕ) (hn : n + 1 < cfg0.N) (d),
    (dats m 0 c).before 2 ⟨n + 1, hn⟩ d = (outsAt0 m c n (Nat.lt_of_succ_lt hn)).1 := by
  intro n
  induction n with
  | zero =>
    intro hn d
    rw [Dat.before_of_pos _ 2 ⟨1, hn⟩ (by show (1 : ℕ) ≠ 0; decide) ((cfg0.win 2).fetch_out rfl _) d]
    rw [show ((cfg0.win 2).flush ⟨(⟨1, hn⟩ : Fin cfg0.N).val - 1, prev ⟨1, hn⟩⟩) = false from
      noflush0_2 _ (by show (1 - 1 : ℕ) ≠ 127; decide)]
    rw [if_neg Bool.false_ne_true]
    unfold Dat.left
    split
    · rename_i hidle
      exact absurd (show (1 - 1 : ℕ) % 128 = 0 from rfl) ((idleAt0_2 _).mp hidle).1
    · rw [kept0_2, after0_2]; rfl
  | succ n ih =>
    intro hn d
    have hN := lt128 ⟨n + 1 + 1, hn⟩
    rw [Dat.before_of_pos _ 2 ⟨n + 1 + 1, hn⟩ (Nat.succ_ne_zero _) ((cfg0.win 2).fetch_out rfl _) d]
    rw [show ((cfg0.win 2).flush ⟨(⟨n + 1 + 1, hn⟩ : Fin cfg0.N).val - 1, prev ⟨n + 1 + 1, hn⟩⟩) = false from
      noflush0_2 _ (by show n + 1 + 1 - 1 ≠ 127; dsimp only at hN; omega)]
    rw [if_neg Bool.false_ne_true]
    unfold Dat.left
    split
    · rename_i hidle
      have h2 : ¬(n + 1) % 8 = 7 := ((idleAt0_2 _).mp hidle).2
      rw [show (⟨(⟨n + 1 + 1, hn⟩ : Fin cfg0.N).val - 1, prev ⟨n + 1 + 1, hn⟩⟩ : Fin cfg0.N) = ⟨n + 1, Nat.lt_of_succ_lt hn⟩ from rfl]
      rw [ih (Nat.lt_of_succ_lt hn) d]
      exact (outsAt0_fst_idle m c ⟨n + 1, Nat.lt_of_succ_lt hn⟩ (Nat.succ_ne_zero n) h2).symm
    · rw [kept0_2, after0_2]; rfl

theorem before0_2 (c : Dev nD) (t : Fin cfg0.N) (hz : ¬t.val = 0) (d) :
    (dats m 0 c).before 2 t d = (outsAt0 m c (t.val - 1) (prev t)).1 := by
  obtain ⟨n, hn⟩ := t
  cases n with
  | zero => exact absurd rfl hz
  | succ n => exact before0_2_succ m c n hn d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0_0 (c : Dev nD) (t : Fin cfg0.N) :
    (dats m 0 c).leavesExact 0 t = owns (c : Thread nD τ) (ms0_0 t) fullShare (iblk m c 0 t) := by
  rw [← after0_0 m c t] <;> rfl
theorem leaves0_1 (c : Dev nD) (t : Fin cfg0.N) :
    (dats m 0 c).leavesExact 1 t = owns (c : Thread nD τ) (ms0_1 t) fullShare (iblk m c 1 t) := by
  rw [← after0_1 m c t] <;> rfl
/-- Where the body stores into the output cell it leaves `(outsAt0 t).1` there. -/
theorem leaves0_2_live (c : Dev nD) (t : Fin cfg0.N) (h : t.val % 128 = 0 ∨ t.val % 8 = 7) :
    (dats m 0 c).leavesExact 2 t = owns (c : Thread nD τ) (ms0_2 t) fullShare ((outsAt0 m c t.val t.isLt).1) := by
  have hi : cfg0.idle 2 (cfg0.grid.coords t) = false :=
    Bool.eq_false_iff.mpr fun hh => by have := (idleAt0_2 t).mp hh; omega
  rw [← after0_2 m c t]; unfold Dat.leavesExact; rw [hi]
/-- Where it does not, it hands the cell back as it found it. -/
theorem leaves0_2_idle (c : Dev nD) (t : Fin cfg0.N) (hz : ¬t.val % 128 = 0) (h2 : ¬t.val % 8 = 7) :
    (dats m 0 c).leavesExact 2 t = iprop(∃ d, owns (c : Thread nD τ) (ms0_2 t) fullShare ((dats m 0 c).before 2 t d)) :=
  Dat.leavesExact_idle _ 2 t ((idleAt0_2 t).mpr ⟨hz, h2⟩) (noflush0_2 t (by omega))

set_option maxHeartbeats 6400000 in
/-- The body at any point: the inputs' buffers hold their blocks; the position says which case the point is in; the
    output cell and the column of minima hold what the point before left (anything at the first point); so that case's run
    applies, and hands back the column at this point's contents and the cell at this point's contents or untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [leaves0_0, leaves0_1]
  have hN := lt128 t
  by_cases hz : t.val = 0
  · rw [leaves0_2_live m c t (.inl (by omega))]
    rw [outsAt0_A m c t hz]
    dsimp only
    unfold out0_A sout0_A
    rw [PhiS_castSucc m c t, PhiS_zero m c _ _ hz, PhiA0_eq]
    iintro ⟨⟨HS0, Hg⟩, Ho, ⟨%d0, H0⟩, ⟨%d1, H1⟩, ⟨%d2, H2⟩⟩
    iapply ((kernelRun0_A c (grid0.coords t) _ _ _ _ _ _ _ _ (c0_of t hz) (c1_of t (by omega)) (nc2_of t (by omega)) (iblk m c 0 t) (iblk m c 1 t)).2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_A c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (ocover0_A c _ _ _ _ _ _ _ _ _ _ _ _ _ _)
  · rw [PhiS_castSucc m c t, PhiS_pos m c _ _ hz]
    simp only [before0_2 m c t hz]
    by_cases h1 : t.val % 8 = 0
    · rw [leaves0_2_idle m c t (by omega) (by omega)]
      simp only [before0_2 m c t hz]
      rw [outsAt0_D m c t hz h1]
      dsimp only
      unfold sout0_D
      iintro ⟨⟨HS0, Hg⟩, Ho, ⟨%d0, H0⟩, ⟨%d1, H1⟩, ⟨%d2, H2⟩⟩
      iapply ((kernelRun0_D c (grid0.coords t) _ _ _ _ _ _ _ _ (nc0_of t hz) (c1_of t h1) (nc2_of t (by omega)) (iblk m c 0 t) (iblk m c 1 t) _).2 Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_D c _ _ _ _ _ _ _ _ _ _ _ _ _ _ _)
        iexact Hg
      isplitl [Ho]; · iexact Ho
      isplitl [H0]; · iexact H0
      isplitl [H1]; · iexact H1
      iexists d2; iexact H2
    · by_cases h2 : t.val % 8 = 7
      · rw [leaves0_2_live m c t (.inr h2)]
        rw [outsAt0_C m c t hz h1 h2]
        dsimp only
        unfold out0_C sout0_C
        iintro ⟨⟨HS0, Hg⟩, Ho, ⟨%d0, H0⟩, ⟨%d1, H1⟩, ⟨%d2, H2⟩⟩
        iapply ((kernelRun0_C c (grid0.coords t) _ _ _ _ _ _ _ _ (nc0_of t hz) (nc1_of t h1) (c2_of t h2) (iblk m c 0 t) (iblk m c 1 t) _ _).2 Set.univ _)
        isplitl [H0]; · iexact H0
        isplitl [H1]; · iexact H1
        isplitl [H2]; · iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (ocover0_C c _ _ _ _ _ _ _ _ _ _ _ _ _ _ _ _)
      · rw [leaves0_2_idle m c t (by omega) h2]
        simp only [before0_2 m c t hz]
        rw [outsAt0_B m c t hz h1 h2]
        dsimp only
        unfold sout0_B
        iintro ⟨⟨HS0, Hg⟩, Ho, ⟨%d0, H0⟩, ⟨%d1, H1⟩, ⟨%d2, H2⟩⟩
        iapply ((kernelRun0_B c (grid0.coords t) _ _ _ _ _ _ _ _ (nc0_of t hz) (nc1_of t h1) (nc2_of t h2) (iblk m c 0 t) (iblk m c 1 t) _ _).2 Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _)
          iexact Hg
        isplitl [Ho]; · iexact Ho
        isplitl [H0]; · iexact H0
        isplitl [H1]; · iexact H1
        iexists d2; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS0, Hg⟩
  isplitl [HS0]
  · iexists _; iexact HS0
  iexact Hg

/-! ## The run and the frame -/

set_option backward.isDefEq.respectTransparency.types false in
/-- Every weakly fair execution of the program terminates; at the end every array of the pipeline holds what the proof
    data computes (the result array: the output cell after the last point) and every other buffer what the host
    operation after the region makes of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What each case's stores leave, as the body's own arithmetic.

  The column of running minima is always left at `lower x0 x1 s`: the stored value of the column's update, computed from
  the two input blocks and from the column `s` as the body read it — the column of the point before, or the column just
  reset to +∞. The output cell is left cleared at the first point, and at the last tile of a row of tiles at the old
  cell plus the sum of the lowered column.
-/
import proofs.«143847_j31044023616212_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a store or load of a whole buffer are all zero. -/
theorem hz2 : (![0, 0] : Fin 2 → Nat) = fun _ => 0 := by funext a; fin_cases a <;> rfl
theorem hz3 : (![0, 0, 0] : Fin 3 → Nat) = fun _ => 0 := by funext a; fin_cases a <;> rfl

/-- The column of minima `s` lowered by the row minima of the tile formed by the blocks `x0` and `x1`. -/
def lower (x0 x1 : Vec F S1x1024x3 .f32) (s : Vec F S1024x1 .f32) : Vec F S1024x1 .f32 :=
  k0_pay1 (k0_pay13 x1) (k0_pay14 x0 x1) (k0_pay15 x0) s

theorem sout0_A_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) :
    sout0_A c i arg3 harg3 arg4 harg4 arg5 harg5 arg6 harg6 hc0 hc1 hc2 x0 x1 = lower x0 x1 (k0_pay4 (F := F)) := by
  unfold sout0_A
  rw [View.read_writes_eq_canon _ _ _ (scover0_A c i arg3 harg3 arg4 harg4 arg5 harg5 arg6 harg6 hc0 hc1 hc2 x0 x1)]
  unfold kernelRun0_A
  dsimp only
  sl_unfold_words
  unfold lower
  rw [View.canon_cons_unit_zero (S := S1024x1) hz2]
  simp only [View.readAt_eq_ld, harg3.read_unread, harg4.read_unread, harg5.read_unread, harg6.read_unread,
    View.ld_unit_zero (S := S1x1024x3) hz3, View.ld_unit_zero (S := S1024x1) hz2, View.ld_unit_zero (S := S1x1) hz2,
    View.readCov_unit_zero (S := S1024x1) _ hz2]

theorem out0_A_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : cond0_0 i) (hc1 : cond0_1 i) (hc2 : ¬cond0_2 i)
    (x0 : Vec F S1x1024x3 .f32) (x1 : Vec F S1x1024x3 .f32) :
    out0_A c i arg3 harg3 arg4 harg4 arg5 harg5 arg6 harg6 hc0 hc1 hc2 x0 x1 = k0_pay3 (F := F) := by
  unfold out0_A
  rw [View.read_writes_eq_canon _ _ _ (ocover0_A c i arg3 harg3 arg4 harg4 arg5 harg5 arg6 harg6 hc0 hc1 hc2 x0 x1)]
  unfold kernelRun0_A
  dsimp only
  sl_unfold_words
  rw [View.canon_unit_zero (S := S1x1) hz2]

theorem sout0_B_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : ¬cond0_2 i)
    (x0 : Vec F S1x1024x3 .f32) (x1 : Vec F S1x1024x3 .f32) (xo : Vec F S1x1 .f32) (xs0 : Vec F S1024x1 .f32) :
    sout0_B c i arg3 harg3 arg4 harg4 arg5 harg5 arg6 harg6 hc0 hc1 hc2 x0 x1 xo xs0 = lower x0 x1 xs0 := by
  unfold sout0_B
  rw [View.read_writes_eq_canon _ _ _ (scover0_B c i arg3 harg3 arg4 harg4 arg5 harg5 arg6 harg6 hc0 hc1 hc2 x0 x1 xo xs0)]
  unfold kernelRun0_B
  dsimp only
  sl_unfold_words
  unfold lower
  rw [View.canon_unit_zero (S := S1024x1) hz2]
  simp only [View.readAt_eq_ld, harg3.read_unread, harg4.read_unread, harg5.read_unread, harg6.read_unread,
    View.ld_unit_zero (S := S1x1024x3) hz3, View.ld_unit_zero (S := S1024x1) hz2, View.ld_unit_zero (S := S1x1) hz2,
    View.readCov_unit_zero (S := S1024x1) _ hz2]

theorem sout0_C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) :
    sout0_C c i arg3 harg3 arg4 harg4 arg5 harg5 arg6 harg6 hc0 hc1 hc2 x0 x1 xo xs0 = lower x0 x1 xs0 := by
  unfold sout0_C
  rw [View.read_writes_eq_canon _ _ _ (scover0_C c i arg3 harg3 arg4 harg4 arg5 harg5 arg6 harg6 hc0 hc1 hc2 x0 x1 xo xs0)]
  unfold kernelRun0_C
  dsimp only
  sl_unfold_words
  unfold lower
  rw [View.canon_unit_zero (S := S1024x1) hz2]
  simp only [View.readAt_eq_ld, harg3.read_unread, harg4.read_unread, harg5.read_unread, harg6.read_unread,
    View.ld_unit_zero (S := S1x1024x3) hz3, View.ld_unit_zero (S := S1024x1) hz2, View.ld_unit_zero (S := S1x1) hz2,
    View.readCov_unit_zero (S := S1024x1) _ hz2]

theorem out0_C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : ¬cond0_1 i) (hc2 : cond0_2 i)
    (x0 : Vec F S1x1024x3 .f32) (x1 : Vec F S1x1024x3 .f32) (xo : Vec F S1x1 .f32) (xs0 : Vec F S1024x1 .f32) :
    out0_C c i arg3 harg3 arg4 harg4 arg5 harg5 arg6 harg6 hc0 hc1 hc2 x0 x1 xo xs0 = k0_pay2 (lower x0 x1 xs0) xo := by
  unfold out0_C
  rw [View.read_writes_eq_canon _ _ _ (ocover0_C c i arg3 harg3 arg4 harg4 arg5 harg5 arg6 harg6 hc0 hc1 hc2 x0 x1 xo xs0)]
  unfold kernelRun0_C
  dsimp only
  sl_unfold_words
  unfold lower
  rw [View.canon_unit_zero (S := S1x1) hz2]
  simp only [View.readAt_eq_ld, harg3.read_unread, harg4.read_unread, harg5.read_unread, harg6.read_unread,
    View.ld_unit_zero (S := S1x1024x3) hz3, View.ld_unit_zero (S := S1024x1) hz2, View.ld_unit_zero (S := S1x1) hz2,
    View.readCov_unit_zero (S := S1024x1) _ hz2]

theorem sout0_D_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1 .f32) (harg5 : arg5.IsWhole) (arg6 : Memref sig .tc .vmem S1024x1 .f32) (harg6 : arg6.IsWhole) (hc0 : ¬cond0_0 i) (hc1 : cond0_1 i) (hc2 : ¬cond0_2 i)
    (x0 : Vec F S1x1024x3 .f32) (x1 : Vec F S1x1024x3 .f32) (xo : Vec F S1x1 .f32) :
    sout0_D c i arg3 harg3 arg4 harg4 arg5 harg5 arg6 harg6 hc0 hc1 hc2 x0 x1 xo = lower x0 x1 (k0_pay4 (F := F)) := by
  unfold sout0_D
  rw [View.read_writes_eq_canon _ _ _ (scover0_D c i arg3 harg3 arg4 harg4 arg5 harg5 arg6 harg6 hc0 hc1 hc2 x0 x1 xo)]
  unfold kernelRun0_D
  dsimp only
  sl_unfold_words
  unfold lower
  rw [View.canon_cons_unit_zero (S := S1024x1) hz2]
  simp only [View.readAt_eq_ld, harg3.read_unread, harg4.read_unread, harg5.read_unread, harg6.read_unread,
    View.ld_unit_zero (S := S1x1024x3) hz3, View.ld_unit_zero (S := S1024x1) hz2, View.ld_unit_zero (S := S1x1) hz2,
    View.readCov_unit_zero (S := S1024x1) _ hz2]

end Cert.KernelIdeal.Hand

end
-- ==== Proof.Chamfer.lean ====
/-
  One-sided Chamfer distance on the extended reals.

  Two batches of 8192 points in three coordinates, `X` and `Y`. The distance of point `n` of `X` to point `m` of `Y`
  (in batch `b`) is taken through the identity |x − y|² = |x|² + |y|² − 2 x·y, clamped at zero before the square root.
  The result is the sum, over both batches and all points of `X`, of the distance to the nearest point of `Y`.

  The same number is reached tile by tile: the 8192 × 8192 distance matrix of a batch is cut into 8 × 8 tiles of
  1024 × 1024, visited row of tiles by row of tiles. Within a row of tiles a column of 1024 running minima is kept
  (`runS`), started afresh from +∞ at the row's first tile; after the row's last tile its 1024 minima are added up and
  joined to a running sum (`runO`) that starts from zero. `runO_last` says the running sum after the last tile is the
  total: minima and sums may be regrouped freely, since `min` and `+` on the extended reals are commutative and
  associative, +∞ is neutral for `min` and zero for `+`; nothing here needs the entries to be finite.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- Two batches of 8192 points with three coordinates each. -/
abbrev Pts : Type := (⟨3, ![2, 8192, 3]⟩ : Shape).Idx → EReal

/-- The literal 2.0, the literal 0.0 and the literal +∞, kept as the binary patterns both programs spell. -/
def two : EReal := Ideal.ofBits .f32 0x40000000#32
def zer : EReal := Ideal.ofBits .f32 0x00000000#32
def top : EReal := Ideal.ofBits .f32 0x7F800000#32

theorem zer_eq : zer = 0 := Ideal.ofBits_zero_f32

theorem min_top (y : EReal) : min top y = y := by
  show min (Ideal.ofBits .f32 0x7F800000#32) y = y
  simp [Ideal.ofBits, Ideal.ieee]

/-- The squared norm of point `n` of batch `b`. -/
def sq (X : Pts) (b : Fin 2) (n : Fin 8192) : EReal :=
  X (ix3 b n 0) * X (ix3 b n 0) + X (ix3 b n 1) * X (ix3 b n 1) + X (ix3 b n 2) * X (ix3 b n 2)

/-- The inner product of point `n` of `X` with point `m` of `Y`, in batch `b`. -/
def cross (X Y : Pts) (b : Fin 2) (n m : Fin 8192) : EReal :=
  X (ix3 b n 0) * Y (ix3 b m 0) + X (ix3 b n 1) * Y (ix3 b m 1) + X (ix3 b n 2) * Y (ix3 b m 2)

/-- The distance between them: the square root of |x|² + |y|² − 2 x·y clamped at zero. -/
def dist (X Y : Pts) (b : Fin 2) (n m : Fin 8192) : EReal :=
  Ideal.sqrt (max (sq X b n + sq Y b m - two * cross X Y b n m) zer)

/-- The distance from point `n` of `X` to the nearest point of `Y`. -/
def nearest (X Y : Pts) (b : Fin 2) (n : Fin 8192) : EReal :=
  (Finset.univ : Finset (Fin 8192)).fold min top (fun m => dist X Y b n m)

/-- The one-sided Chamfer distance: the nearest-neighbour distances added over both batches. -/
def total (X Y : Pts) : EReal :=
  zer + ∑ b : Fin 2, ∑ n : Fin 8192, nearest X Y b n

/-! ## Tile by tile

Tile `t` (0 ≤ t < 128) belongs to batch `t / 64`, row of tiles `t / 8 % 8` and column of tiles `t % 8`. -/

def bOf (t : ℕ) : Fin 2 := ⟨t / 64 % 2, Nat.mod_lt _ (by decide)⟩
def rowOf (t : ℕ) (r : Fin 1024) : Fin 8192 := ⟨t / 8 % 8 * 1024 + r.val, by have := r.isLt; omega⟩
def colOf (t : ℕ) (q : Fin 1024) : Fin 8192 := ⟨t % 8 * 1024 + q.val, by have := q.isLt; omega⟩

/-- Within tile `t`, the least distance from the tile's row `r` to the tile's 1024 columns. -/
def tileMin (X Y : Pts) (t : ℕ) (r : Fin 1024) : EReal :=
  (Finset.univ : Finset (Fin 1024)).fold min top (fun q => dist X Y (bOf t) (rowOf t r) (colOf t q))

/-- The running minima after tile `t`: started from +∞ at the first tile of a row of tiles. -/
def runS (X Y : Pts) : ℕ → Fin 1024 → EReal
  | 0 => fun r => min top (tileMin X Y 0 r)
  | t + 1 => fun r => min (if (t + 1) % 8 = 0 then top else runS X Y t r) (tileMin X Y (t + 1) r)

/-- The running sum after tile `t`: zero at first, joined by the row's 1024 minima after the last tile of each row of tiles. -/
def runO (X Y : Pts) : ℕ → EReal
  | 0 => zer
  | t + 1 => if (t + 1) % 8 = 7 then runO X Y t + ∑ r : Fin 1024, runS X Y (t + 1) r else runO X Y t

end Chamfer

end
-- ==== Proof.KI.Payloads.lean ====
/-
  The body's arithmetic read at an index, on the extended reals.

  `x0` is a block of 1024 points of the first set and `x1` a block of 1024 points of the second (three coordinates each).
  The value stored into the column of running minima is, at row `r`, the minimum of what the column held there and of
  the least distance from point `r` of `x0` to the 1024 points of `x1`; the value stored into the output cell is what
  the cell held plus the sum of the column; the two splats are the literals 0.0 and +∞.
-/
import proofs.«143847_j31044023616212_1_alg».proof.Proof.Gen.KernelIdeal.Skeleton
import proofs.«143847_j31044023616212_1_alg».proof.Proof.Chamfer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen
open Idealize.ShloMosaic Idealize.ShloMosaic.TcCoe Idealize.ShloMosaic.ValueIdx

/-- The distance from point `r` of block `x0` to point `q` of block `x1`: √ max(|x|² + |y|² − 2 x·y, 0). -/
def blkDist (x0 x1 : Vec Ideal S1x1024x3 .f32) (r q : Fin 1024) : EReal :=
  Ideal.sqrt (max
    ((x0 (ix3 0 r 0) * x0 (ix3 0 r 0) + x0 (ix3 0 r 1) * x0 (ix3 0 r 1) + x0 (ix3 0 r 2) * x0 (ix3 0 r 2))
      + (x1 (ix3 0 q 0) * x1 (ix3 0 q 0) + x1 (ix3 0 q 1) * x1 (ix3 0 q 1) + x1 (ix3 0 q 2) * x1 (ix3 0 q 2))
      - Chamfer.two * (x0 (ix3 0 r 0) * x1 (ix3 0 q 0) + x0 (ix3 0 r 1) * x1 (ix3 0 q 1) + x0 (ix3 0 r 2) * x1 (ix3 0 q 2)))
    Chamfer.zer)

/-! ## The layout chain: the two blocks read by coordinates -/

/-- The block with its unit batch axis dropped reads, at (r, c), the block at (0, r, c). -/
theorem pay5_apply (x : Vec Ideal S1x1024x3 .f32) (r : Fin 1024) (c : Fin 3) :
    k0_pay5 (F := Ideal) x (ix2 r c) = x (ix3 0 r c) := by
  unfold k0_pay5
  exact shapeCast_1ab_ab_apply x _ r c

/-- The transposed block reads, at (c, q), the block at (0, q, c). -/
theorem pay6_apply (x : Vec Ideal S1x1024x3 .f32) (c : Fin 3) (q : Fin 1024) :
    k0_pay6 (F := Ideal) x (ix2 c q) = x (ix3 0 q c) := by
  unfold k0_pay6
  refine (transpose_ix2_apply _ _ c q).trans ?_
  exact shapeCast_1ab_ab_apply x _ q c

/-- The column of first coordinates: row r holds the first coordinate of point r. -/
theorem pay7_apply (x : Vec Ideal S1x1024x3 .f32) (r : Fin 1024) :
    k0_pay7 (F := Ideal) x (ix2 r 0) = x (ix3 0 r 0) := by
  unfold k0_pay7
  refine (slice2_axis1_apply 0 _ _ r 0 (0 : Fin 3) rfl).trans ?_
  exact pay5_apply x r 0

/-- The column of second coordinates. -/
theorem pay8_apply (x : Vec Ideal S1x1024x3 .f32) (r : Fin 1024) :
    k0_pay8 (F := Ideal) x (ix2 r 0) = x (ix3 0 r 1) := by
  unfold k0_pay8
  refine (slice2_axis1_apply 1 _ _ r 0 (1 : Fin 3) rfl).trans ?_
  exact pay5_apply x r 1

/-- The column of third coordinates. -/
theorem pay9_apply (x : Vec Ideal S1x1024x3 .f32) (r : Fin 1024) :
    k0_pay9 (F := Ideal) x (ix2 r 0) = x (ix3 0 r 2) := by
  unfold k0_pay9
  refine (slice2_axis1_apply 2 _ _ r 0 (2 : Fin 3) rfl).trans ?_
  exact pay5_apply x r 2

/-- The row of first coordinates: lane q holds the first coordinate of point q. -/
theorem pay10_apply (x : Vec Ideal S1x1024x3 .f32) (q : Fin 1024) :
    k0_pay10 (F := Ideal) x (ix2 0 q) = x (ix3 0 q 0) := by
  unfold k0_pay10
  refine (slice2_axis0_apply 0 _ _ 0 q (0 : Fin 3) rfl).trans ?_
  exact pay6_apply x 0 q

/-- The row of second coordinates. -/
theorem pay11_apply (x : Vec Ideal S1x1024x3 .f32) (q : Fin 1024) :
    k0_pay11 (F := Ideal) x (ix2 0 q) = x (ix3 0 q 1) := by
  unfold k0_pay11
  refine (slice2_axis0_apply 1 _ _ 0 q (1 : Fin 3) rfl).trans ?_
  exact pay6_apply x 1 q

/-- The row of third coordinates. -/
theorem pay12_apply (x : Vec Ideal S1x1024x3 .f32) (q : Fin 1024) :
    k0_pay12 (F := Ideal) x (ix2 0 q) = x (ix3 0 q 2) := by
  unfold k0_pay12
  refine (slice2_axis0_apply 2 _ _ 0 q (2 : Fin 3) rfl).trans ?_
  exact pay6_apply x 2 q

/-- One column spread over many: an [a, 1] array broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three summands of the squared distance -/

/-- The squared norm of point q of the second block, as a row. -/
theorem pay13_apply (x1 : Vec Ideal S1x1024x3 .f32) (q : Fin 1024) :
    k0_pay13 (F := Ideal) x1 (ix2 0 q)
      = x1 (ix3 0 q 0) * x1 (ix3 0 q 0) + x1 (ix3 0 q 1) * x1 (ix3 0 q 1) + x1 (ix3 0 q 2) * x1 (ix3 0 q 2) := by
  unfold k0_pay13
  show k0_pay10 (F := Ideal) x1 (ix2 0 q) * k0_pay10 (F := Ideal) x1 (ix2 0 q)
      + k0_pay11 (F := Ideal) x1 (ix2 0 q) * k0_pay11 (F := Ideal) x1 (ix2 0 q)
      + k0_pay12 (F := Ideal) x1 (ix2 0 q) * k0_pay12 (F := Ideal) x1 (ix2 0 q) = _
  rw [pay10_apply, pay11_apply, pay12_apply]

/-- The squared norm of point r of the first block, spread along the row. -/
theorem pay15_apply (x0 : Vec Ideal S1x1024x3 .f32) (r q : Fin 1024) :
    k0_pay15 (F := Ideal) x0 (ix2 r q)
      = x0 (ix3 0 r 0) * x0 (ix3 0 r 0) + x0 (ix3 0 r 1) * x0 (ix3 0 r 1) + x0 (ix3 0 r 2) * x0 (ix3 0 r 2) := by
  unfold k0_pay15
  refine (broadcastTo_a1_ab_apply _ _ r q).trans ?_
  show k0_pay7 (F := Ideal) x0 (ix2 r 0) * k0_pay7 (F := Ideal) x0 (ix2 r 0)
      + k0_pay8 (F := Ideal) x0 (ix2 r 0) * k0_pay8 (F := Ideal) x0 (ix2 r 0)
      + k0_pay9 (F := Ideal) x0 (ix2 r 0) * k0_pay9 (F := Ideal) x0 (ix2 r 0) = _
  rw [pay7_apply, pay8_apply, pay9_apply]

/-- The inner product of point r of the first block with point q of the second. -/
theorem pay14_apply (x0 x1 : Vec Ideal S1x1024x3 .f32) (r q : Fin 1024) :
    k0_pay14 (F := Ideal) x0 x1 (ix2 r q)
      = x0 (ix3 0 r 0) * x1 (ix3 0 q 0) + x0 (ix3 0 r 1) * x1 (ix3 0 q 1) + x0 (ix3 0 r 2) * x1 (ix3 0 q 2) := by
  unfold k0_pay14
  show broadcastTo S1024x1024 (k0_pay7 (F := Ideal) x0) _ (ix2 r q) * broadcastTo S1024x1024 (k0_pay10 (F := Ideal) x1) _ (ix2 r q)
      + broadcastTo S1024x1024 (k0_pay8 (F := Ideal) x0) _ (ix2 r q) * broadcastTo S1024x1024 (k0_pay11 (F := Ideal) x1) _ (ix2 r q)
      + broadcastTo S1024x1024 (k0_pay9 (F := Ideal) x0) _ (ix2 r q) * broadcastTo S1024x1024 (k0_pay12 (F := Ideal) x1) _ (ix2 r q) = _
  rw [broadcastTo_a1_ab_apply, broadcastTo_a1_ab_apply, broadcastTo_a1_ab_apply,
    broadcastTo_1b_ab_apply, broadcastTo_1b_ab_apply, broadcastTo_1b_ab_apply,
    pay7_apply, pay8_apply, pay9_apply, pay10_apply, pay11_apply, pay12_apply]

/-! ## The two reductions and the casts around them -/

/-- A minimum taken along one axis, on the extended reals: the fold of `min` from the starting value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- The minimum along the lanes of a 1024 × 1024 matrix, at row r: the least of the row's 1024 entries and the
    starting value. -/
theorem rowMin_apply (v : FVec Ideal S1024x1024 .f32) (acc : BitVec 32) (h : S1024x1024.Reduces [1] S1024)
    (hφ : FKind.Formats .f32) (hacc : acc = FKind.minimumf.neutral .f32 hφ) (r : Fin 1024) :
    multiReduction .minimumf [1] S1024 v acc h hφ hacc (ix1 r)
      = (Finset.univ : Finset (Fin 1024)).fold min (Ideal.ofBits .f32 acc) (fun q => v (ix2 r q)) := by
  refine (multiReduction_minimumf_single v acc h hφ hacc (ix1 r)).trans ?_
  refine congrArg (fun f => Finset.fold min (Ideal.ofBits .f32 acc) f (Finset.univ : Finset (Fin 1024))) (funext fun q => ?_)
  show v (h.lift (ix1 r) q) = v (ix2 r q)
  refine congrArg v (funext fun c => Fin.ext ?_)
  match c with
  | ⟨0, _⟩ => rfl
  | ⟨1, _⟩ => rfl

/-- The sum down the one column of a 1024 × 1 matrix. -/
theorem colSum_apply (v : FVec Ideal S1024x1 .f32) (acc : BitVec 32) (h : S1024x1.Reduces [0] S1)
    (hφ : FKind.Formats .f32) (hacc : acc = FKind.add.neutral .f32 hφ) :
    multiReduction .add [0] S1 v acc h hφ hacc (ix1 0) = ∑ r : Fin 1024, v (ix2 r 0) := by
  refine (Ideal.multiReduction_add_single v acc h hφ hacc (ix1 0)).trans ?_
  refine Finset.sum_congr rfl fun k _ => ?_
  refine congrArg v (funext fun c => Fin.ext ?_)
  match c with
  | ⟨0, _⟩ => rfl
  | ⟨1, _⟩ => rfl

/-- A vector of length a stood up as an [a, 1] column reads, at (i, 0), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The value stored into the column of minima, at row `r`: the old entry lowered by the row's least distance. -/
theorem pay1_apply (x0 x1 : Vec Ideal S1x1024x3 .f32) (s : Vec Ideal S1024x1 .f32) (r : Fin 1024) :
    k0_pay1 (F := Ideal) (k0_pay13 (F := Ideal) x1) (k0_pay14 (F := Ideal) x0 x1) (k0_pay15 (F := Ideal) x0) s (ix2 r 0)
      = min (s (ix2 r 0)) ((Finset.univ : Finset (Fin 1024)).fold min Chamfer.top (fun q => blkDist x0 x1 r q)) := by
  unfold k0_pay1
  dsimp only
  rw [shapeCast_self]
  refine congrArg (min (s (ix2 r 0))) ?_
  refine (shapeCast_a_a1_apply _ _ r 0).trans ?_
  refine (rowMin_apply _ _ _ _ _ r).trans ?_
  refine congrArg (fun f => Finset.fold min Chamfer.top f (Finset.univ : Finset (Fin 1024))) (funext fun q => ?_)
  show Ideal.sqrt (max
      (k0_pay15 (F := Ideal) x0 (ix2 r q) + broadcastTo S1024x1024 (k0_pay13 (F := Ideal) x1) _ (ix2 r q)
        - Chamfer.two * k0_pay14 (F := Ideal) x0 x1 (ix2 r q))
      Chamfer.zer) = blkDist x0 x1 r q
  rw [broadcastTo_1b_ab_apply, pay13_apply, pay14_apply, pay15_apply]
  rfl

/-- The value stored into the output cell: the old entry plus the sum of the column. -/
theorem pay2_apply (s : Vec Ideal S1024x1 .f32) (xo : Vec Ideal S1x1 .f32) :
    k0_pay2 (F := Ideal) s xo (ix2 0 0) = xo (ix2 0 0) + ∑ r : Fin 1024, s (ix2 r 0) := by
  unfold k0_pay2
  dsimp only
  rw [shapeCast_self]
  refine congrArg (xo (ix2 0 0) + ·) ?_
  refine (shapeCast_a_1a_apply _ _ 0 0).trans ?_
  exact colSum_apply s _ _ _ _

/-- The cleared output cell holds the literal 0.0. -/
theorem pay3_apply : k0_pay3 (F := Ideal) (ix2 0 0) = Chamfer.zer := rfl

/-- The reset column holds the literal +∞ in every row. -/
theorem pay4_apply (r : Fin 1024) : k0_pay4 (F := Ideal) (ix2 r 0) = Chamfer.top := by
  unfold k0_pay4
  rw [shapeCast_self]
  rfl

end Cert.KernelIdeal.HandValue

end
-- ==== Proof.KI.Value.lean ====
/-
  What the idealized kernel computes, on the extended reals.

  `X` and `Y` are the two argument arrays as the region finds them. The input blocks at the point of linear position t
  are rows `rowOf t ·` of batch `bOf t` of `X` and rows `colOf t ·` of the same batch of `Y`, so the distance between two
  points of the blocks is the specification's distance between those rows. By induction on t the output cell after point
  t holds the specification's running sum `runO X Y t` and the column of minima its running minima `runS X Y t`. The cell
  is written back once, after the last point, so the result array ends at `runO X Y 127`, and the host's reshape of that
  one-cell array into a scalar has the same entry.
-/
import proofs.«143847_j31044023616212_1_alg».proof.Proof.KI.Pieces
import proofs.«143847_j31044023616212_1_alg».proof.Proof.KI.Payloads
import proofs.«143847_j31044023616212_1_alg».proof.Proof.Chamfer
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The two argument arrays as the region finds them, as point sets. -/
abbrev X (c : Dev nD) : Chamfer.Pts := V m c main_arg0
abbrev Y (c : Dev nD) : Chamfer.Pts := V m c main_arg1

/-- The input blocks at a point, at their literal type. -/
abbrev blk0 (c : Dev nD) (t : Fin cfg0.N) : Vec Ideal S1x1024x3 .f32 := iblk m c 0 t
abbrev blk1 (c : Dev nD) (t : Fin cfg0.N) : Vec Ideal S1x1024x3 .f32 := iblk m c 1 t

/-- The block indices of the two input windows at the point of position t: batch t / 64 for both, row of tiles
    t / 8 % 8 for the first and column of tiles t % 8 for the second. -/
theorem idx_facts : ∀ t : Fin cfg0.N,
    win0_0.index t (0 : Fin 3) = t.val / 64 % 2 ∧ win0_0.index t (1 : Fin 3) = t.val / 8 % 8 ∧ win0_0.index t (2 : Fin 3) = 0
    ∧ win0_1.index t (0 : Fin 3) = t.val / 64 % 2 ∧ win0_1.index t (1 : Fin 3) = t.val % 8 ∧ win0_1.index t (2 : Fin 3) = 0 :=
  (by decide +kernel : ∀ t : Fin grid0.N, _)

/-- Row `r` of the first block is row `rowOf t r` of batch `bOf t` of `X`. -/
theorem blk0_apply (c : Dev nD) (t : Fin cfg0.N) (r : Fin 1024) (k : Fin 3) :
    blk0 m c t (ix3 0 r k) = X m c (ix3 (Chamfer.bOf t.val) (Chamfer.rowOf t.val r) k) := by
  obtain ⟨e0, e1, e2, -, -, -⟩ := idx_facts t
  show V m c main_arg0 (((cfg0.win 0).blk t).view.emb (ix3 0 r k)) = V m c main_arg0 (ix3 (Chamfer.bOf t.val) (Chamfer.rowOf t.val r) k)
  refine congrArg (V m c main_arg0) ?_
  funext a; apply Fin.ext
  match a with
  | ⟨0, _⟩ => show win0_0.index t (0 : Fin 3) * 1 + 1 * (0 : ℕ) = t.val / 64 % 2; omega
  | ⟨1, _⟩ => show win0_0.index t (1 : Fin 3) * 1024 + 1 * r.val = t.val / 8 % 8 * 1024 + r.val; omega
  | ⟨2, _⟩ => show win0_0.index t (2 : Fin 3) * 3 + 1 * k.val = k.val; omega

/-- Row `q` of the second block is row `colOf t q` of batch `bOf t` of `Y`. -/
theorem blk1_apply (c : Dev nD) (t : Fin cfg0.N) (q : Fin 1024) (k : Fin 3) :
    blk1 m c t (ix3 0 q k) = Y m c (ix3 (Chamfer.bOf t.val) (Chamfer.colOf t.val q) k) := by
  obtain ⟨-, -, -, e0, e1, e2⟩ := idx_facts t
  show V m c main_arg1 (((cfg0.win 1).blk t).view.emb (ix3 0 q k)) = V m c main_arg1 (ix3 (Chamfer.bOf t.val) (Chamfer.colOf t.val q) k)
  refine congrArg (V m c main_arg1) ?_
  funext a; apply Fin.ext
  match a with
  | ⟨0, _⟩ => show win0_1.index t (0 : Fin 3) * 1 + 1 * (0 : ℕ) = t.val / 64 % 2; omega
  | ⟨1, _⟩ => show win0_1.index t (1 : Fin 3) * 1024 + 1 * q.val = t.val % 8 * 1024 + q.val; omega
  | ⟨2, _⟩ => show win0_1.index t (2 : Fin 3) * 3 + 1 * k.val = k.val; omega

/-- The distance between two points of the blocks is the specification's distance between the rows they are. -/
theorem blkDist_eq (c : Dev nD) (t : Fin cfg0.N) (r q : Fin 1024) :
    blkDist (blk0 m c t) (blk1 m c t) r q
      = Chamfer.dist (X m c) (Y m c) (Chamfer.bOf t.val) (Chamfer.rowOf t.val r) (Chamfer.colOf t.val q) := by
  unfold blkDist Chamfer.dist Chamfer.sq Chamfer.cross
  rw [blk0_apply m c t r 0, blk0_apply m c t r 1, blk0_apply m c t r 2, blk1_apply m c t q 0, blk1_apply m c t q 1, blk1_apply m c t q 2]

/-- The column `s` lowered by the tile at point t, at row `r`: the minimum of the old entry and the tile's row minimum. -/
theorem lower_apply (c : Dev nD) (t : Fin cfg0.N) (s : Vec Ideal S1024x1 .f32) (r : Fin 1024) :
    lower (F := Ideal) (blk0 m c t) (blk1 m c t) s (ix2 r 0) = min (s (ix2 r 0)) (Chamfer.tileMin (X m c) (Y m c) t.val r) := by
  unfold lower Chamfer.tileMin
  rw [pay1_apply]
  exact congrArg (fun f => min (s (ix2 r 0)) (Finset.fold min Chamfer.top f Finset.univ)) (funext fun q => blkDist_eq m c t r q)

/-- After the point of position n the output cell holds the running sum and the column the running minima. -/
theorem outs_eq (c : Dev nD) : ∀ (n : ℕ) (hn : n < cfg0.N),
    (outsAt0 m c n hn).1 (ix2 0 0) = Chamfer.runO (X m c) (Y m c) n
    ∧ ∀ r : Fin 1024, (outsAt0 m c n hn).2 (ix2 r 0) = Chamfer.runS (X m c) (Y m c) n r := by
  intro n
  induction n with
  | zero =>
    intro hn
    rw [outsAt0_A m c ⟨0, hn⟩ rfl]
    dsimp only
    rw [out0_A_eq, sout0_A_eq]
    refine ⟨pay3_apply, fun r => ?_⟩
    rw [show iblk m c 0 ⟨0, hn⟩ = blk0 m c ⟨0, hn⟩ from rfl, show iblk m c 1 ⟨0, hn⟩ = blk1 m c ⟨0, hn⟩ from rfl, lower_apply, pay4_apply]
    rfl
  | succ n ih =>
    intro hn
    obtain ⟨ihO, ihS⟩ := ih (Nat.lt_of_succ_lt hn)
    by_cases h1 : (n + 1) % 8 = 0
    · rw [outsAt0_D m c ⟨n + 1, hn⟩ (Nat.succ_ne_zero n) h1]
      dsimp only
      rw [sout0_D_eq]
      refine ⟨?_, fun r => ?_⟩
      · rw [show (outsAt0 m c (n + 1 - 1) (prev ⟨n + 1, hn⟩)).1 = (outsAt0 m c n (Nat.lt_of_succ_lt hn)).1 from rfl, ihO]
        show _ = if (n + 1) % 8 = 7 then _ else _
        rw [if_neg (by omega)]
      · rw [show iblk m c 0 ⟨n + 1, hn⟩ = blk0 m c ⟨n + 1, hn⟩ from rfl, show iblk m c 1 ⟨n + 1, hn⟩ = blk1 m c ⟨n + 1, hn⟩ from rfl, lower_apply, pay4_apply]
        show _ = min (if (n + 1) % 8 = 0 then _ else _) _
        rw [if_pos h1]
    · by_cases h2 : (n + 1) % 8 = 7
      · rw [outsAt0_C m c ⟨n + 1, hn⟩ (Nat.succ_ne_zero n) h1 h2]
        dsimp only
        rw [out0_C_eq, sout0_C_eq]
        rw [show iblk m c 0 ⟨n + 1, hn⟩ = blk0 m c ⟨n + 1, hn⟩ from rfl, show iblk m c 1 ⟨n + 1, hn⟩ = blk1 m c ⟨n + 1, hn⟩ from rfl]
        rw [show (outsAt0 m c (n + 1 - 1) (prev ⟨n + 1, hn⟩)) = (outsAt0 m c n (Nat.lt_of_succ_lt hn)) from rfl]
        have hS : ∀ r : Fin 1024, lower (F := Ideal) (blk0 m c ⟨n + 1, hn⟩) (blk1 m c ⟨n + 1, hn⟩) (outsAt0 m c n (Nat.lt_of_succ_lt hn)).2 (ix2 r 0)
            = Chamfer.runS (X m c) (Y m c) (n + 1) r := fun r => by
          rw [lower_apply, ihS r]
          show _ = min (if (n + 1) % 8 = 0 then _ else _) _
          rw [if_neg h1]
        refine ⟨?_, hS⟩
        rw [pay2_apply, ihO]
        show _ = if (n + 1) % 8 = 7 then _ else _
        rw [if_pos h2]
        exact congrArg (Chamfer.runO (X m c) (Y m c) n + ·) (Finset.sum_congr rfl fun r _ => hS r)
      · rw [outsAt0_B m c ⟨n + 1, hn⟩ (Nat.succ_ne_zero n) h1 h2]
        dsimp only
        rw [sout0_B_eq]
        rw [show iblk m c 0 ⟨n + 1, hn⟩ = blk0 m c ⟨n + 1, hn⟩ from rfl, show iblk m c 1 ⟨n + 1, hn⟩ = blk1 m c ⟨n + 1, hn⟩ from rfl]
        rw [show (outsAt0 m c (n + 1 - 1) (prev ⟨n + 1, hn⟩)) = (outsAt0 m c n (Nat.lt_of_succ_lt hn)) from rfl]
        refine ⟨?_, fun r => ?_⟩
        · rw [ihO]
          show _ = if (n + 1) % 8 = 7 then _ else _
          rw [if_neg h2]
        · rw [lower_apply, ihS r]
          show _ = min (if (n + 1) % 8 = 0 then _ else _) _
          rw [if_neg h1]

/-! ## The result array and the scalar result -/

/-- The output window's one block sits at index (0, 0) at every point. -/
theorem idx_facts2 : ∀ t : Fin cfg0.N, win0_2.index t (0 : Fin 2) = 0 ∧ win0_2.index t (1 : Fin 2) = 0 :=
  (by decide +kernel : ∀ t : Fin grid0.N, _)

/-- An index of the result array is in the output's block at a point iff each coordinate is in the block's range. -/
theorem mem_blk2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_call0_v0).slice (win0_2.rect t)).set ↔ _
  rw [View.set_slice_whole, Rect.mem_set_unit]
  exact Iff.rfl

/-- The last point of the grid. -/
abbrev tLast : Fin cfg0.N := ⟨127, by rw [show cfg0.N = 128 from N_0]; decide⟩

/-- The result array after the run: its one entry is the running sum after the last point. -/
theorem final2 (c : Dev nD) :
    (dats m 0 c).arrAt 2 cfg0.N = (fun _ => Chamfer.runO (X m c) (Y m c) 127 : S1x1.Idx → EReal) := by
  refine (dats m 0 c).arrAt_eq_of_cover 2 _ (fun t hf => ?_) (fun i => ?_)
  · have ht : t.val = 127 := by have := (flush0_2 t).mp hf; have := lt128 t; omega
    show (cfg0.win 2).cut (grid0.coords t) ((dats m 0 c).after 2 t) = _
    rw [after0_2]
    funext j
    have hj : j = ix2 0 0 := by
      funext a; apply Fin.ext
      match a with
      | ⟨0, _⟩ => have h0 : (j 0).val < 1 := (j 0).isLt; show (j 0).val = 0; omega
      | ⟨1, _⟩ => have h1 : (j 1).val < 1 := (j 1).isLt; show (j 1).val = 0; omega
    show (outsAt0 m c t.val t.isLt).1 j = Chamfer.runO (X m c) (Y m c) 127
    rw [hj, (outs_eq m c t.val t.isLt).1, ht]
  · refine ⟨tLast, (flush0_2 tLast).mpr rfl, (mem_blk2 tLast i).mpr fun a => ?_⟩
    obtain ⟨e0, e1⟩ := idx_facts2 tLast
    match a with
    | ⟨0, _⟩ => have h0 : (i 0).val < 1 := (i 0).isLt; show win0_2.index tLast (0 : Fin 2) * 1 ≤ (i 0).val ∧ (i 0).val < win0_2.index tLast (0 : Fin 2) * 1 + 1; omega
    | ⟨1, _⟩ => have h1 : (i 1).val < 1 := (i 1).isLt; show win0_2.index tLast (1 : Fin 2) * 1 ≤ (i 1).val ∧ (i 1).val < win0_2.index tLast (1 : Fin 2) * 1 + 1; omega

end Cert.KernelIdeal.HandValue

end
-- ==== Proof.KI.Result.lean ====
/-
  The idealized kernel's run with its scalar result named: every weakly fair execution terminates, the result is the
  specification's running sum after the last tile, and the argument arrays are unchanged. The host's reshape of the
  one-cell result array into a scalar keeps its entry.
-/
import proofs.«143847_j31044023616212_1_alg».proof.Proof.KI.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- After the host's reshape the scalar result holds the one entry of the result array. -/
theorem tail_v0 (c : Dev nD) :
    Pipeline.afterTail₀ cfgs (dats m) 0 (V0 m) [hostOps1] c main_v0
      = (fun _ => Chamfer.runO (X m c) (Y m c) 127 : S_.Idx → EReal) := by
  have e : Pipeline.withArrays (cfgs 0).spec c (V0 m c) (fun w => (dats m 0 c).arrAt w (cfgs 0).N) (Proc.devRef .tc main_call0_v0)
      = (fun _ => Chamfer.runO (X m c) (Y m c) 127 : S1x1.Idx → EReal) :=
    (Pipeline.withArrays_arr spec0 launch0.win.arr_inj c _ _ 2).trans (final2 m c)
  unfold Pipeline.afterTail₀
  show StableHlo.after hostOps1 _ (Proc.devRef .tc main_v0) = _
  after_results
  funext i
  show shapeCast S_ (Pipeline.withArrays (cfgs 0).spec c (V0 m c) (fun w => (dats m 0 c).arrAt w (cfgs 0).N) (Proc.devRef .tc main_call0_v0)) shapeCasts_S1x1_S_ i = _
  rw [e]
  rfl

/-- The run of the idealized kernel's program, its result and its arguments read. -/
theorem run : θ_run defs (onTc (τ := τ) (main (F := Ideal))) ⟨m, fun _ => 0, ρ⟩ fun r => ∀ c : Dev nD,
      r.2.mem ((c.tc : Thread nD τ).loc main_v0) = (fun _ => Chamfer.runO (X m c) (Y m c) 127 : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v0 (by decide)).trans (tail_v0 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.HandValue

end
-- ==== Proof.RefSide.lean ====
/-
  The reference program read at an index: the squared norms, the cross term, the distance, its minimum over the
  second point set and the sum over the first, as the stages the host operations compute.
-/
import proofs.«143847_j31044023616212_1_alg».proof.Defs
import proofs.«143847_j31044023616212_1_alg».proof.Proof.Gen.ReferenceIdeal.Run
import proofs.«143847_j31044023616212_1_alg».proof.Proof.Gen.ReferenceIdeal.Read
import proofs.«143847_j31044023616212_1_alg».proof.Proof.Chamfer
import Idealize.ShloMosaic.Lib.ValueIdx
import Idealize.ShloMosaic.PureOps.Ideal.Laws
import Idealize.ShloMosaic.PureOps.Reduce
import Mathlib.Algebra.BigOperators.Fin

noncomputable section

namespace Cert.ReferenceIdeal.RefSide

open Cert.ReferenceIdeal Cert.ReferenceIdeal.Gen Cert.ReferenceIdeal.Read
open Idealize.ShloMosaic Idealize.ShloMosaic.ValueIdx

/-- The squared norm of point `n` of batch `b`: the three squared coordinates added to the literal 0.0. -/
theorem v1_read (x : Chamfer.Pts) (b : Fin 2) (n : Fin 8192) :
    val_main_v1 (F := Ideal) x (ix2 b n) = Chamfer.sq x b n := by
  have e : ∀ k : Fin 3, idx_main_v1 (ix2 b n) k = ix3 b n k := fun k =>
    funext fun a => Fin.ext (by match a with | ⟨0, _⟩ => rfl | ⟨1, _⟩ => rfl | ⟨2, _⟩ => rfl)
  rw [val_main_v1_apply, val_main_cst_apply, Fin.sum_univ_three]
  simp only [val_main_v0_apply, e, Ideal.mulf_def, Ideal.ofBits_def, Ideal.ofBits_zero_f32, zero_add]
  rfl

/-- The same for the second point set. -/
theorem v3_read (x : Chamfer.Pts) (b : Fin 2) (m : Fin 8192) :
    val_main_v3 (F := Ideal) x (ix2 b m) = Chamfer.sq x b m := by
  have e : ∀ k : Fin 3, idx_main_v3 (ix2 b m) k = ix3 b m k := fun k =>
    funext fun a => Fin.ext (by match a with | ⟨0, _⟩ => rfl | ⟨1, _⟩ => rfl | ⟨2, _⟩ => rfl)
  rw [val_main_v3_apply, val_main_cst_0_apply, Fin.sum_univ_three]
  simp only [val_main_v2_apply, e, Ideal.mulf_def, Ideal.ofBits_def, Ideal.ofBits_zero_f32, zero_add]
  rfl

/-- The contraction over the three coordinates is the inner product of point `n` of `X` with point `m` of `Y`. -/
theorem v4_read (x0 x1 : Chamfer.Pts) (b : Fin 2) (n m : Fin 8192) :
    val_main_v4 (F := Ideal) x0 x1 (ix3 b n m) = Chamfer.cross x0 x1 b n m := by
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v4_apply, Fin.sum_univ_three]
  simp only [el, er]
  rfl

/-- Spread along the second point set, the squared norm of point `n` of `X` is read at every `m`. -/
theorem v7_read (x0 : Chamfer.Pts) (b : Fin 2) (n m : Fin 8192) :
    val_main_v7 (F := Ideal) x0 (ix3 b n m) = Chamfer.sq x0 b n := by
  have e : idx_main_v5 (idx_main_v7 (ix3 b n m)) = ix2 b n :=
    funext fun a => Fin.ext (by match a with | ⟨0, _⟩ => rfl | ⟨1, _⟩ => rfl)
  rw [val_main_v7_apply, val_main_v5_apply, e, v1_read]

/-- Spread along the first point set, the squared norm of point `m` of `Y` is read at every `n`. -/
theorem v8_read (x1 : Chamfer.Pts) (b : Fin 2) (n m : Fin 8192) :
    val_main_v8 (F := Ideal) x1 (ix3 b n m) = Chamfer.sq x1 b m := by
  have e : idx_main_v6 (idx_main_v8 (ix3 b n m)) = ix2 b m :=
    funext fun a => Fin.ext (by match a with | ⟨0, _⟩ => rfl | ⟨1, _⟩ => rfl)
  rw [val_main_v8_apply, val_main_v6_apply, e, v3_read]

/-- The entry `(n, m)` of batch `b`'s distance matrix: |x|² + |y|² − 2 x·y clamped at zero, under the square root. -/
theorem v15_read (x0 x1 : Chamfer.Pts) (b : Fin 2) (n m : Fin 8192) :
    val_main_v15 (F := Ideal) x0 x1 (ix3 b n m) = Chamfer.dist x0 x1 b n m := by
  rw [val_main_v15_apply, val_main_v14_apply, val_main_v12_apply, val_main_v9_apply, val_main_v11_apply,
    val_main_v10_apply, val_main_cst_1_apply, val_main_v13_apply, val_main_cst_2_apply,
    v7_read, v8_read, v4_read]
  simp only [Ideal.hostUnary_sqrt_def, Ideal.maximumf_def, Ideal.subf_def, Ideal.addf_def, Ideal.mulf_def,
    Ideal.ofBits_def]
  rfl

/-- The shape relation of the minimum over the second point set, in the form that names the inserted coordinate. -/
theorem reduces_d2 : S2x8192x8192.Reduces [2] S2x8192 := by decide

/-- Row `(b, n)` with `m` put back on the reduced axis is the matrix index `(b, n, m)`. -/
theorem lift_read (b : Fin 2) (n m : Fin 8192) : reduces_d2.lift (ix2 b n) m = ix3 b n m :=
  funext fun a => Fin.ext (by match a with | ⟨0, _⟩ => rfl | ⟨1, _⟩ => rfl | ⟨2, _⟩ => rfl)

/-- On the extended reals a fold of the float minimum is the fold of `min`, over any set. -/
theorem fold_minimumf {ι : Type} (s : Finset ι) (t : EReal) (f : ι → EReal) :
    s.fold (FloatOps.minimumf (F := Ideal) (φ := .f32)) t f = s.fold min t f := rfl

/-- The minimum of row `(b, n)` of the distance matrix, started from +∞, is the distance to the nearest point. -/
theorem v16_read (x0 x1 : Chamfer.Pts) (b : Fin 2) (n : Fin 8192) :
    val_main_v16 (F := Ideal) x0 x1 (ix2 b n) = Chamfer.nearest x0 x1 b n := by
  have hf : (val_main_v15 (F := Ideal) x0 x1 ∘ reduces_d2.lift (ix2 b n))
      = fun m : Fin 8192 => Chamfer.dist x0 x1 b n m :=
    funext fun m : Fin 8192 =>
      (congrArg (val_main_v15 (F := Ideal) x0 x1) (lift_read b n m)).trans (v15_read x0 x1 b n m)
  unfold val_main_v16
  rw [Host.reduce_eq_fold_single (FloatOps.minimumf (F := Ideal) (φ := .f32)) _ _ _ reduces_d2 h_S_, hf,
    val_main_cst_3_apply]
  exact fold_minimumf _ _ _

/-- The reference's result: the nearest-neighbour distances of both batches added to the literal 0.0. -/
theorem result_eq (x0 x1 : (⟨S2x8192x3, .f32⟩ : BufTy).Contents (Elt Ideal)) :
    Cert.ReferenceIdeal.Read.val_main_v17 (F := Ideal) x0 x1 = fun _ => Chamfer.total x0 x1 := by
  funext i
  rw [val_main_v17_apply, val_main_cst_4_apply, sum_idx2]
  simp only [v16_read]
  rfl

end Cert.ReferenceIdeal.RefSide

end
-- ==== Proof.ChamferLaw.lean ====
/-
  The tile-by-tile running sum is the one-sided Chamfer distance: minima over a row's eight tiles join into the minimum
  over all 8192 columns, the sixteen rows of tiles of 1024 rows each are the 2 × 8192 rows, and sums and minima on the
  extended reals regroup freely.

  Every fold of `min` from +∞ is read as an infimum over the index type, so that regrouping minima is a matter of
  comparing index sets: a tile's minimum is the infimum over the columns `m` with `m / 1024` equal to the tile's column
  number, the running minimum after tile `t` is the infimum over the columns with `m / 1024 ≤ t % 8`, and at the last
  tile of a row that is every column. The running sum after tile `t` is zero plus the nearest-neighbour sums of the
  `(t + 1) / 8` rows of tiles completed so far; the sixteen rows of tiles of 1024 rows are matched with the 2 × 8192 rows
  by `(k, r) ↦ (k / 8, k % 8 * 1024 + r)`.
-/
import proofs.«143847_j31044023616212_1_alg».proof.Proof.Chamfer
import Mathlib.Data.Fintype.Lattice
import Mathlib.Data.Fintype.BigOperators
import Mathlib.Algebra.BigOperators.Fin
import Mathlib.Order.CompleteLattice.Basic

noncomputable section

namespace Chamfer

open Idealize.ShloMosaic Idealize.ShloMosaic.ValueIdx

/-- The bit pattern of +∞ is the top element: it is neutral for `min`, and only ⊤ is. -/
theorem top_eq : top = (⊤ : EReal) := by
  have h := min_top ⊤
  rwa [min_eq_left le_top] at h

/-- A fold of `min` from +∞ over a whole finite type is the infimum over that type. -/
theorem fold_min_top_eq_iInf {ι : Type} [Fintype ι] (f : ι → EReal) :
    (Finset.univ : Finset ι).fold min top f = ⨅ i, f i := by
  rw [top_eq, ← Finset.inf_univ_eq_iInf]
  rfl

/-- The nearest-neighbour distance is the infimum of the distances over all 8192 points of `Y`. -/
theorem nearest_eq (X Y : Pts) (b : Fin 2) (n : Fin 8192) :
    nearest X Y b n = ⨅ m : Fin 8192, dist X Y b n m :=
  fold_min_top_eq_iInf _

/-- A tile's minimum is the infimum over the columns whose block number `m / 1024` is the tile's column number:
column `q` of the tile is column `t % 8 * 1024 + q` of the matrix, and `m` is column `m % 1024` of its block. -/
theorem tileMin_eq (X Y : Pts) (t : ℕ) (r : Fin 1024) :
    tileMin X Y t r
      = ⨅ m : Fin 8192, ⨅ _ : m.val / 1024 = t % 8, dist X Y (bOf t) (rowOf t r) m := by
  unfold tileMin
  rw [fold_min_top_eq_iInf]
  apply le_antisymm
  · refine le_iInf₂ fun m hm => ?_
    have hq : m.val % 1024 < 1024 := Nat.mod_lt _ (by norm_num)
    refine iInf_le_of_le ⟨m.val % 1024, hq⟩ (le_of_eq ?_)
    congr 1
    apply Fin.ext
    simp only [colOf]
    omega
  · refine le_iInf fun q => ?_
    refine iInf₂_le_of_le (colOf t q) ?_ le_rfl
    have := q.isLt
    simp only [colOf]
    omega

/-- The running minimum after tile `t` is the infimum over the columns of the row's tiles visited so far, those with
`m / 1024 ≤ t % 8`: a tile that is not the first of its row has the batch and the rows of the tile before it, and adds
the columns of one more block. -/
theorem runS_eq (X Y : Pts) (t : ℕ) (r : Fin 1024) :
    runS X Y t r
      = ⨅ m : Fin 8192, ⨅ _ : m.val / 1024 ≤ t % 8, dist X Y (bOf t) (rowOf t r) m := by
  induction t with
  | zero =>
    rw [runS]
    beta_reduce
    rw [min_top, tileMin_eq]
    refine iInf_congr fun m => iInf_congr_Prop ?_ fun _ => rfl
    omega
  | succ t ih =>
    rw [runS]
    beta_reduce
    by_cases h : (t + 1) % 8 = 0
    · rw [if_pos h, min_top, tileMin_eq]
      refine iInf_congr fun m => iInf_congr_Prop ?_ fun _ => rfl
      omega
    · rw [if_neg h, ih, tileMin_eq]
      have hb : bOf t = bOf (t + 1) := by
        apply Fin.ext
        simp only [bOf]
        omega
      have hr : rowOf t r = rowOf (t + 1) r := by
        apply Fin.ext
        simp only [rowOf]
        omega
      rw [hb, hr]
      apply le_antisymm
      · refine le_iInf₂ fun m hm => ?_
        by_cases hm' : m.val / 1024 ≤ t % 8
        · exact min_le_of_left_le (iInf₂_le m hm')
        · exact min_le_of_right_le (iInf₂_le m (by omega))
      · refine le_min (le_iInf₂ fun m hm => iInf₂_le m (by omega))
          (le_iInf₂ fun m hm => iInf₂_le m (by omega))

/-- After the last tile of a row of tiles every column has been visited: the running minimum is the nearest-neighbour
distance. -/
theorem runS_last (X Y : Pts) (t : ℕ) (h : t % 8 = 7) (r : Fin 1024) :
    runS X Y t r = nearest X Y (bOf t) (rowOf t r) := by
  rw [runS_eq, nearest_eq]
  refine iInf_congr fun m => iInf_pos ?_
  have := m.isLt
  omega

/-- The running sum after tile `t` is zero plus the nearest-neighbour sums of the `(t + 1) / 8` rows of tiles
completed so far; row of tiles `k` is completed at tile `8 * k + 7`. -/
theorem runO_eq (X Y : Pts) (t : ℕ) :
    runO X Y t
      = zer + ∑ k ∈ Finset.range ((t + 1) / 8), ∑ r : Fin 1024,
          nearest X Y (bOf (8 * k + 7)) (rowOf (8 * k + 7) r) := by
  induction t with
  | zero =>
    have e : (0 + 1) / 8 = 0 := by norm_num
    rw [runO, e, Finset.range_zero, Finset.sum_empty, add_zero]
  | succ t ih =>
    rw [runO]
    by_cases h : (t + 1) % 8 = 7
    · have e : (t + 1 + 1) / 8 = (t + 1) / 8 + 1 := by omega
      have e' : 8 * ((t + 1) / 8) + 7 = t + 1 := by omega
      rw [if_pos h, ih, e, Finset.sum_range_succ, e', ← add_assoc]
      congr 1
      exact Finset.sum_congr rfl fun r _ => runS_last X Y (t + 1) h r
    · have e : (t + 1 + 1) / 8 = (t + 1) / 8 := by omega
      rw [if_neg h, ih, e]

/-- The sixteen rows of tiles of 1024 rows each are the two batches of 8192 rows: `(k, r) ↦ (k / 8, k % 8 * 1024 + r)`,
with inverse `(b, n) ↦ (b * 8 + n / 1024, n % 1024)`. -/
def rowEquiv : Fin 16 × Fin 1024 ≃ Fin 2 × Fin 8192 where
  toFun p := (bOf (8 * p.1.val + 7), rowOf (8 * p.1.val + 7) p.2)
  invFun p :=
    (⟨p.1.val * 8 + p.2.val / 1024, by have := p.1.isLt; have := p.2.isLt; omega⟩,
      ⟨p.2.val % 1024, Nat.mod_lt _ (by norm_num)⟩)
  left_inv p := by
    obtain ⟨k, r⟩ := p
    have := k.isLt
    have := r.isLt
    apply Prod.ext
    · apply Fin.ext
      simp only [bOf, rowOf]
      omega
    · apply Fin.ext
      simp only [rowOf]
      omega
  right_inv p := by
    obtain ⟨b, n⟩ := p
    have := b.isLt
    have := n.isLt
    apply Prod.ext
    · apply Fin.ext
      simp only [bOf]
      omega
    · apply Fin.ext
      simp only [rowOf]
      omega

/-- A sum over the sixteen rows of tiles and the 1024 rows of each is the sum over both batches and all 8192 rows. -/
theorem sum_rows (g : Fin 2 → Fin 8192 → EReal) :
    ∑ k ∈ Finset.range 16, ∑ r : Fin 1024, g (bOf (8 * k + 7)) (rowOf (8 * k + 7) r)
      = ∑ b : Fin 2, ∑ n : Fin 8192, g b n := by
  rw [Finset.sum_range (fun k => ∑ r : Fin 1024, g (bOf (8 * k + 7)) (rowOf (8 * k + 7) r)),
    ← Fintype.sum_prod_type', ← Fintype.sum_prod_type']
  exact Fintype.sum_equiv rowEquiv _ _ fun _ => rfl

/-- After the last of the 128 tiles the running sum is the total. -/
theorem runO_last (X Y : Pts) : runO X Y 127 = total X Y := by
  have e : (127 + 1) / 8 = 16 := by norm_num
  rw [runO_eq, e, sum_rows (nearest X Y)]
  rfl

end Chamfer

end
-- ==== Proof.lean ====
/-
  One-sided Chamfer distance: the tiled kernel against the plain reference, over the extended reals.

  Both programs compute, for every point of the first set, the distance to the nearest point of the second set
  (through |x|² + |y|² − 2 x·y, clamped at zero before the square root), and add these up over both batches. The
  reference takes the minimum over all 8192 columns at once and then one sum; the kernel walks the 8 × 8 tiles of each
  batch's distance matrix, keeps a column of 1024 running minima along a row of tiles and adds the column's sum into a
  one-cell accumulator after the row's last tile. Minima and sums on the extended reals regroup freely (commutative,
  associative, +∞ and zero neutral), so the two results are equal for every input; finiteness of the inputs is not used.

  The frames of the two kernel programs (word-level and idealized) come from one body proof, written once for any float
  instance; the reference's frame is its run with the result dropped; the idealization rewrote no operation, so
  `preserves` has nothing to state.
-/
import proofs.«143847_j31044023616212_1_alg».proof.Defs
import proofs.«143847_j31044023616212_1_alg».proof.Proof.Gen.Kernel
import proofs.«143847_j31044023616212_1_alg».proof.Proof.Gen.KernelIdeal
import proofs.«143847_j31044023616212_1_alg».proof.Proof.Gen.ReferenceIdeal
import proofs.«143847_j31044023616212_1_alg».proof.Proof.Gen.Pre_finite_inputs
import proofs.«143847_j31044023616212_1_alg».proof.Proof.Gen.ReferenceIdeal.Run
import proofs.«143847_j31044023616212_1_alg».proof.Proof.Gen.ReferenceIdeal.Read
import proofs.«143847_j31044023616212_1_alg».proof.Proof.K.Frame
import proofs.«143847_j31044023616212_1_alg».proof.Proof.KI.Result
import proofs.«143847_j31044023616212_1_alg».proof.Proof.RefSide
import proofs.«143847_j31044023616212_1_alg».proof.Proof.ChamferLaw
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- The idealized kernel program runs and leaves its arguments unchanged. -/
theorem frame_ki : Cert.frame_KernelIdeal := fun m ρ _ => Cert.KernelIdeal.Hand.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's running sum after the last tile and the reference's sum of nearest-neighbour distances are one number. -/
theorem algebraic : Cert.algebraic_KernelIdeal_ReferenceIdeal := by
  intro m ρ m' ρ' _ hagree
  refine ⟨fun c => (fun _ => Chamfer.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩) (Cert.KernelIdeal.HandValue.run m ρ)
    exact funext fun _ => Chamfer.runO_last _ _
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v17_eq _ _).trans (Cert.ReferenceIdeal.RefSide.result_eq _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
